-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x128x128 : Shape := ⟨4, ![32, 64, 128, 128]⟩
abbrev S256 : Shape := ⟨1, ![256]⟩
abbrev S_ : Shape := ⟨0, ![]⟩

class Facts : Prop where
  bcast_S_S32x64x128x128 : S_.BroadcastsInDim S32x64x128x128 (![] : Fin 0 → Fin S32x64x128x128.rank)
  reducesTo_S32x64x128x128_S_d0_1_2_3 : S32x64x128x128.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S32x64x128x128 .f32) (main_arg1 : IVec S256 32) : IVec S_ 1 :=
  let main_v0 : FVec F S32x64x128x128 .f32 := Host.absf main_arg0
  let main_cst : FVec F S_ .f32 := constant S_ .f32 0x7F800000#32
  let main_v1 : FVec F S32x64x128x128 .f32 := broadcastInDim S32x64x128x128 ![] bcast_S_S32x64x128x128 main_cst
  let main_v2 : IVec S32x64x128x128 1 := cmpf .olt main_v0 main_v1
  let main_c : IVec S_ 1 := constantI S_ 1 1#1
  let main_v3 : IVec S_ 1 := (fun x v => Host.reduce IntOp.andi x v reducesTo_S32x64x128x128_S_d0_1_2_3 h_S_) main_v2 main_c
  let main_c_0 : IVec S_ 32 := constantI S_ 32 0#32
  let main_v4 : IVec S256 32 := broadcastInDim S256 ![] bcast_S_S256 main_c_0
  let main_v5 : IVec S256 1 := cmpi .sge main_arg1 main_v4
  let main_c_1 : IVec S_ 32 := constantI S_ 32 64#32
  let main_v6 : IVec S256 32 := broadcastInDim S256 ![] bcast_S_S256 main_c_1
  let main_v7 : IVec S256 1 := cmpi .slt main_arg1 main_v6
  let main_v8 : IVec S256 1 := andi main_v5 main_v7
  let main_c_2 : IVec S_ 1 := constantI S_ 1 1#1
  let main_v9 : IVec S_ 1 := (fun x v => Host.reduce IntOp.andi x v reducesTo_S256_S_d0 h_S_) main_v8 main_c_2
  let main_v10 : IVec S_ 1 := andi main_v3 main_v9
  main_v10
-- ==== Kernel.lean ====
abbrev S32x64x128x128 : Shape := ⟨4, ![32, 64, 128, 128]⟩
abbrev S256 : Shape := ⟨1, ![256]⟩
abbrev S32x256x128x128 : Shape := ⟨4, ![32, 256, 128, 128]⟩
abbrev S32x8x128x128 : Shape := ⟨4, ![32, 8, 128, 128]⟩
abbrev S8 : Shape := ⟨1, ![8]⟩
abbrev S1 : Shape := ⟨1, ![1]⟩
abbrev S_ : Shape := ⟨0, ![]⟩
abbrev S32x1x128x128 : Shape := ⟨4, ![32, 1, 128, 128]⟩

abbrev nBuf : Space → Nat
  | .hbm => 2
  | .vmem => 3
  | .smem => 1
  | _ => 0

abbrev bufTy : (tb : Table) → Fin (tcTables nBuf tb) → BufTy
  | .hbm, ⟨0, _⟩ => ⟨S32x64x128x128, .f32⟩
  | .hbm, ⟨1, _⟩ => ⟨S32x256x128x128, .f32⟩
  | .local _ .vmem, ⟨0, _⟩ => ⟨S32x8x128x128, .f32⟩
  | .local _ .vmem, ⟨1, _⟩ => ⟨S32x8x128x128, .f32⟩
  | .local _ .vmem, ⟨2, _⟩ => ⟨S32x8x128x128, .f32⟩
  | .local _ .smem, ⟨0, _⟩ => ⟨S256, .i32⟩
  | _, _ => ⟨S32x64x128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k0_off2 (v3 : BitVec 32) : Fin 4 → Nat :=
  let c0_i32_5 : BitVec 32 := 0#32
  let c0_i32_6 : BitVec 32 := 0#32
  let c0_i32_7 : BitVec 32 := 0#32
  ![0, v3.toNat, 0, 0]

def k0_chk1 (v3 : BitVec 32) : Prop :=
  (∀ a, (k0_off2 v3) a + S32x1x128x128.size a ≤ S32x64x128x128.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S32x1x128x128.size a ≤ S32x64x128x128.size a := fun v3 k0_hw1 => k0_hw1

def k0_off3 (i : grid0.Coords) : Fin 1 → Nat :=
  let arg0 : BitVec 32 := BitVec.ofNat 32 (i 0).val
  let c8_i32 : BitVec 32 := 8#32
  let v0 : BitVec 32 := Scalar.muli arg0 c8_i32
  let c1_i32 : BitVec 32 := 1#32
  let v8 : BitVec 32 := Scalar.addi v0 c1_i32
  let v9 : Index := Scalar.indexCast v8
  ![v9.toNat]
def k0_off4 (v10 : BitVec 32) : Fin 4 → Nat :=
  let c0_i32_13 : BitVec 32 := 0#32
  let c0_i32_14 : BitVec 32 := 0#32
  let c0_i32_15 : BitVec 32 := 0#32
  ![0, v10.toNat, 0, 0]

def k0_chk2 (v10 : BitVec 32) : Prop :=
  (∀ a, (k0_off4 v10) a + S32x1x128x128.size a ≤ S32x64x128x128.size a)
instance k0_chk2.dec : ∀ (v10 : BitVec 32), Decidable (k0_chk2 v10) := fun v10 => decidable_of_iff' _ (Iff.of_eq (k0_chk2.eq_1 v10))
theorem k0_off4_inb : ∀ (v10 : BitVec 32) (k0_hw2 : k0_chk2 v10), ∀ a, (k0_off4 v10) a + S32x1x128x128.size a ≤ S32x64x128x128.size a := fun v10 k0_hw2 => k0_hw2

def k0_off5 (i : grid0.Coords) : Fin 1 → Nat :=
  let arg0 : BitVec 32 := BitVec.ofNat 32 (i 0).val
  let c8_i32 : BitVec 32 := 8#32
  let v0 : BitVec 32 := Scalar.muli arg0 c8_i32
  let c2_i32 : BitVec 32 := 2#32
  let v15 : BitVec 32 := Scalar.addi v0 c2_i32
  let v16 : Index := Scalar.indexCast v15
  ![v16.toNat]
def k0_off6 (v17 : BitVec 32) : Fin 4 → Nat :=
  let c0_i32_21 : BitVec 32 := 0#32
  let c0_i32_22 : BitVec 32 := 0#32
  let c0_i32_23 : BitVec 32 := 0#32
  ![0, v17.toNat, 0, 0]

def k0_chk3 (v17 : BitVec 32) : Prop :=
  (∀ a, (k0_off6 v17) a + S32x1x128x128.size a ≤ S32x64x128x128.size a)
instance k0_chk3.dec : ∀ (v17 : BitVec 32), Decidable (k0_chk3 v17) := fun v17 => decidable_of_iff' _ (Iff.of_eq (k0_chk3.eq_1 v17))
theorem k0_off6_inb : ∀ (v17 : BitVec 32) (k0_hw3 : k0_chk3 v17), ∀ a, (k0_off6 v17) a + S32x1x128x128.size a ≤ S32x64x128x128.size a := fun v17 k0_hw3 => k0_hw3

def k0_off7 (i : grid0.Coords) : Fin 1 → Nat :=
  let arg0 : BitVec 32 := BitVec.ofNat 32 (i 0).val
  let c8_i32 : BitVec 32 := 8#32
  let v0 : BitVec 32 := Scalar.muli arg0 c8_i32
  let c3_i32 : BitVec 32 := 3#32
  let v22 : BitVec 32 := Scalar.addi v0 c3_i32
  let v23 : Index := Scalar.indexCast v22
  ![v23.toNat]
def k0_off8 (v24 : BitVec 32) : Fin 4 → Nat :=
  let c0_i32_29 : BitVec 32 := 0#32
  let c0_i32_30 : BitVec 32 := 0#32
  let c0_i32_31 : BitVec 32 := 0#32
  ![0, v24.toNat, 0, 0]

def k0_chk4 (v24 : BitVec 32) : Prop :=
  (∀ a, (k0_off8 v24) a + S32x1x128x128.size a ≤ S32x64x128x128.size a)
instance k0_chk4.dec : ∀ (v24 : BitVec 32), Decidable (k0_chk4 v24) := fun v24 => decidable_of_iff' _ (Iff.of_eq (k0_chk4.eq_1 v24))
theorem k0_off8_inb : ∀ (v24 : BitVec 32) (k0_hw4 : k0_chk4 v24), ∀ a, (k0_off8 v24) a + S32x1x128x128.size a ≤ S32x64x128x128.size a := fun v24 k0_hw4 => k0_hw4

def k0_off9 (i : grid0.Coords) : Fin 1 → Nat :=
  let arg0 : BitVec 32 := BitVec.ofNat 32 (i 0).val
  let c8_i32 : BitVec 32 := 8#32
  let v0 : BitVec 32 := Scalar.muli arg0 c8_i32
  let c4_i32 : BitVec 32 := 4#32
  let v29 : BitVec 32 := Scalar.addi v0 c4_i32
  let v30 : Index := Scalar.indexCast v29
  ![v30.toNat]
def k0_off10 (v31 : BitVec 32) : Fin 4 → Nat :=
  let c0_i32_37 : BitVec 32 := 0#32
  let c0_i32_38 : BitVec 32 := 0#32
  let c0_i32_39 : BitVec 32 := 0#32
  ![0, v31.toNat, 0, 0]

def k0_chk5 (v31 : BitVec 32) : Prop :=
  (∀ a, (k0_off10 v31) a + S32x1x128x128.size a ≤ S32x64x128x128.size a)
instance k0_chk5.dec : ∀ (v31 : BitVec 32), Decidable (k0_chk5 v31) := fun v31 => decidable_of_iff' _ (Iff.of_eq (k0_chk5.eq_1 v31))
theorem k0_off10_inb : ∀ (v31 : BitVec 32) (k0_hw5 : k0_chk5 v31), ∀ a, (k0_off10 v31) a + S32x1x128x128.size a ≤ S32x64x128x128.size a := fun v31 k0_hw5 => k0_hw5

def k0_off11 (i : grid0.Coords) : Fin 1 → Nat :=
  let arg0 : BitVec 32 := BitVec.ofNat 32 (i 0).val
  let c8_i32 : BitVec 32 := 8#32
  let v0 : BitVec 32 := Scalar.muli arg0 c8_i32
  let c5_i32 : BitVec 32 := 5#32
  let v36 : BitVec 32 := Scalar.addi v0 c5_i32
  let v37 : Index := Scalar.indexCast v36
  ![v37.toNat]
def k0_off12 (v38 : BitVec 32) : Fin 4 → Nat :=
  let c0_i32_45 : BitVec 32 := 0#32
  let c0_i32_46 : BitVec 32 := 0#32
  let c0_i32_47 : BitVec 32 := 0#32
  ![0, v38.toNat, 0, 0]

def k0_chk6 (v38 : BitVec 32) : Prop :=
  (∀ a, (k0_off12 v38) a + S32x1x128x128.size a ≤ S32x64x128x128.size a)
instance k0_chk6.dec : ∀ (v38 : BitVec 32), Decidable (k0_chk6 v38) := fun v38 => decidable_of_iff' _ (Iff.of_eq (k0_chk6.eq_1 v38))
theorem k0_off12_inb : ∀ (v38 : BitVec 32) (k0_hw6 : k0_chk6 v38), ∀ a, (k0_off12 v38) a + S32x1x128x128.size a ≤ S32x64x128x128.size a := fun v38 k0_hw6 => k0_hw6

def k0_off13 (i : grid0.Coords) : Fin 1 → Nat :=
  let arg0 : BitVec 32 := BitVec.ofNat 32 (i 0).val
  let c8_i32 : BitVec 32 := 8#32
  let v0 : BitVec 32 := Scalar.muli arg0 c8_i32
  let c6_i32 : BitVec 32 := 6#32
  let v43 : BitVec 32 := Scalar.addi v0 c6_i32
  let v44 : Index := Scalar.indexCast v43
  ![v44.toNat]
def k0_off14 (v45 : BitVec 32) : Fin 4 → Nat :=
  let c0_i32_53 : BitVec 32 := 0#32
  let c0_i32_54 : BitVec 32 := 0#32
  let c0_i32_55 : BitVec 32 := 0#32
  ![0, v45.toNat, 0, 0]

def k0_chk7 (v45 : BitVec 32) : Prop :=
  (∀ a, (k0_off14 v45) a + S32x1x128x128.size a ≤ S32x64x128x128.size a)
instance k0_chk7.dec : ∀ (v45 : BitVec 32), Decidable (k0_chk7 v45) := fun v45 => decidable_of_iff' _ (Iff.of_eq (k0_chk7.eq_1 v45))
theorem k0_off14_inb : ∀ (v45 : BitVec 32) (k0_hw7 : k0_chk7 v45), ∀ a, (k0_off14 v45) a + S32x1x128x128.size a ≤ S32x64x128x128.size a := fun v45 k0_hw7 => k0_hw7

def k0_off15 (i : grid0.Coords) : Fin 1 → Nat :=
  let arg0 : BitVec 32 := BitVec.ofNat 32 (i 0).val
  let c8_i32 : BitVec 32 := 8#32
  let v0 : BitVec 32 := Scalar.muli arg0 c8_i32
  let c7_i32 : BitVec 32 := 7#32
  let v50 : BitVec 32 := Scalar.addi v0 c7_i32
  let v51 : Index := Scalar.indexCast v50
  ![v51.toNat]
def k0_off16 (v52 : BitVec 32) : Fin 4 → Nat :=
  let c0_i32_61 : BitVec 32 := 0#32
  let c0_i32_62 : BitVec 32 := 0#32
  let c0_i32_63 : BitVec 32 := 0#32
  ![0, v52.toNat, 0, 0]

def k0_chk8 (v52 : BitVec 32) : Prop :=
  (∀ a, (k0_off16 v52) a + S32x1x128x128.size a ≤ S32x64x128x128.size a)
instance k0_chk8.dec : ∀ (v52 : BitVec 32), Decidable (k0_chk8 v52) := fun v52 => decidable_of_iff' _ (Iff.of_eq (k0_chk8.eq_1 v52))
theorem k0_off16_inb : ∀ (v52 : BitVec 32) (k0_hw8 : k0_chk8 v52), ∀ a, (k0_off16 v52) a + S32x1x128x128.size a ≤ S32x64x128x128.size a := fun v52 k0_hw8 => k0_hw8

def k0_off17 (i : grid0.Coords) : Fin 1 → Nat :=
  let arg0 : BitVec 32 := BitVec.ofNat 32 (i 0).val
  let c8_i32 : BitVec 32 := 8#32
  let v0 : BitVec 32 := Scalar.muli arg0 c8_i32
  let c0_i32_64 : BitVec 32 := 0#32
  let v57 : BitVec 32 := Scalar.addi v0 c0_i32_64
  let v58 : Index := Scalar.indexCast v57
  ![v58.toNat]
def k0_off18 (v59 : BitVec 32) : Fin 4 → Nat :=
  let c0_i32_70 : BitVec 32 := 0#32
  let c0_i32_71 : BitVec 32 := 0#32
  let c0_i32_72 : BitVec 32 := 0#32
  ![0, v59.toNat, 0, 0]

def k0_chk9 (v59 : BitVec 32) : Prop :=
  (∀ a, (k0_off18 v59) a + S32x1x128x128.size a ≤ S32x64x128x128.size a)
instance k0_chk9.dec : ∀ (v59 : BitVec 32), Decidable (k0_chk9 v59) := fun v59 => decidable_of_iff' _ (Iff.of_eq (k0_chk9.eq_1 v59))
theorem k0_off18_inb : ∀ (v59 : BitVec 32) (k0_hw9 : k0_chk9 v59), ∀ a, (k0_off18 v59) a + S32x1x128x128.size a ≤ S32x64x128x128.size a := fun v59 k0_hw9 => k0_hw9

def k0_off19 (i : grid0.Coords) : Fin 1 → Nat :=
  let arg0 : BitVec 32 := BitVec.ofNat 32 (i 0).val
  let c8_i32 : BitVec 32 := 8#32
  let v0 : BitVec 32 := Scalar.muli arg0 c8_i32
  let c1_i32_73 : BitVec 32 := 1#32
  let v64 : BitVec 32 := Scalar.addi v0 c1_i32_73
  let v65 : Index := Scalar.indexCast v64
  ![v65.toNat]
def k0_off20 (v66 : BitVec 32) : Fin 4 → Nat :=
  let c0_i32_79 : BitVec 32 := 0#32
  let c0_i32_80 : BitVec 32 := 0#32
  let c0_i32_81 : BitVec 32 := 0#32
  ![0, v66.toNat, 0, 0]

def k0_chk10 (v66 : BitVec 32) : Prop :=
  (∀ a, (k0_off20 v66) a + S32x1x128x128.size a ≤ S32x64x128x128.size a)
instance k0_chk10.dec : ∀ (v66 : BitVec 32), Decidable (k0_chk10 v66) := fun v66 => decidable_of_iff' _ (Iff.of_eq (k0_chk10.eq_1 v66))
theorem k0_off20_inb : ∀ (v66 : BitVec 32) (k0_hw10 : k0_chk10 v66), ∀ a, (k0_off20 v66) a + S32x1x128x128.size a ≤ S32x64x128x128.size a := fun v66 k0_hw10 => k0_hw10

def k0_off21 (i : grid0.Coords) : Fin 1 → Nat :=
  let arg0 : BitVec 32 := BitVec.ofNat 32 (i 0).val
  let c8_i32 : BitVec 32 := 8#32
  let v0 : BitVec 32 := Scalar.muli arg0 c8_i32
  let c2_i32_82 : BitVec 32 := 2#32
  let v71 : BitVec 32 := Scalar.addi v0 c2_i32_82
  let v72 : Index := Scalar.indexCast v71
  ![v72.toNat]
def k0_off22 (v73 : BitVec 32) : Fin 4 → Nat :=
  let c0_i32_88 : BitVec 32 := 0#32
  let c0_i32_89 : BitVec 32 := 0#32
  let c0_i32_90 : BitVec 32 := 0#32
  ![0, v73.toNat, 0, 0]

def k0_chk11 (v73 : BitVec 32) : Prop :=
  (∀ a, (k0_off22 v73) a + S32x1x128x128.size a ≤ S32x64x128x128.size a)
instance k0_chk11.dec : ∀ (v73 : BitVec 32), Decidable (k0_chk11 v73) := fun v73 => decidable_of_iff' _ (Iff.of_eq (k0_chk11.eq_1 v73))
theorem k0_off22_inb : ∀ (v73 : BitVec 32) (k0_hw11 : k0_chk11 v73), ∀ a, (k0_off22 v73) a + S32x1x128x128.size a ≤ S32x64x128x128.size a := fun v73 k0_hw11 => k0_hw11

def k0_off23 (i : grid0.Coords) : Fin 1 → Nat :=
  let arg0 : BitVec 32 := BitVec.ofNat 32 (i 0).val
  let c8_i32 : BitVec 32 := 8#32
  let v0 : BitVec 32 := Scalar.muli arg0 c8_i32
  let c3_i32_91 : BitVec 32 := 3#32
  let v78 : BitVec 32 := Scalar.addi v0 c3_i32_91
  let v79 : Index := Scalar.indexCast v78
  ![v79.toNat]
def k0_off24 (v80 : BitVec 32) : Fin 4 → Nat :=
  let c0_i32_97 : BitVec 32 := 0#32
  let c0_i32_98 : BitVec 32 := 0#32
  let c0_i32_99 : BitVec 32 := 0#32
  ![0, v80.toNat, 0, 0]

def k0_chk12 (v80 : BitVec 32) : Prop :=
  (∀ a, (k0_off24 v80) a + S32x1x128x128.size a ≤ S32x64x128x128.size a)
instance k0_chk12.dec : ∀ (v80 : BitVec 32), Decidable (k0_chk12 v80) := fun v80 => decidable_of_iff' _ (Iff.of_eq (k0_chk12.eq_1 v80))
theorem k0_off24_inb : ∀ (v80 : BitVec 32) (k0_hw12 : k0_chk12 v80), ∀ a, (k0_off24 v80) a + S32x1x128x128.size a ≤ S32x64x128x128.size a := fun v80 k0_hw12 => k0_hw12

def k0_off25 (i : grid0.Coords) : Fin 1 → Nat :=
  let arg0 : BitVec 32 := BitVec.ofNat 32 (i 0).val
  let c8_i32 : BitVec 32 := 8#32
  let v0 : BitVec 32 := Scalar.muli arg0 c8_i32
  let c4_i32_100 : BitVec 32 := 4#32
  let v85 : BitVec 32 := Scalar.addi v0 c4_i32_100
  let v86 : Index := Scalar.indexCast v85
  ![v86.toNat]
def k0_off26 (v87 : BitVec 32) : Fin 4 → Nat :=
  let c0_i32_106 : BitVec 32 := 0#32
  let c0_i32_107 : BitVec 32 := 0#32
  let c0_i32_108 : BitVec 32 := 0#32
  ![0, v87.toNat, 0, 0]

def k0_chk13 (v87 : BitVec 32) : Prop :=
  (∀ a, (k0_off26 v87) a + S32x1x128x128.size a ≤ S32x64x128x128.size a)
instance k0_chk13.dec : ∀ (v87 : BitVec 32), Decidable (k0_chk13 v87) := fun v87 => decidable_of_iff' _ (Iff.of_eq (k0_chk13.eq_1 v87))
theorem k0_off26_inb : ∀ (v87 : BitVec 32) (k0_hw13 : k0_chk13 v87), ∀ a, (k0_off26 v87) a + S32x1x128x128.size a ≤ S32x64x128x128.size a := fun v87 k0_hw13 => k0_hw13

def k0_off27 (i : grid0.Coords) : Fin 1 → Nat :=
  let arg0 : BitVec 32 := BitVec.ofNat 32 (i 0).val
  let c8_i32 : BitVec 32 := 8#32
  let v0 : BitVec 32 := Scalar.muli arg0 c8_i32
  let c5_i32_109 : BitVec 32 := 5#32
  let v92 : BitVec 32 := Scalar.addi v0 c5_i32_109
  let v93 : Index := Scalar.indexCast v92
  ![v93.toNat]
def k0_off28 (v94 : BitVec 32) : Fin 4 → Nat :=
  let c0_i32_115 : BitVec 32 := 0#32
  let c0_i32_116 : BitVec 32 := 0#32
  let c0_i32_117 : BitVec 32 := 0#32
  ![0, v94.toNat, 0, 0]

def k0_chk14 (v94 : BitVec 32) : Prop :=
  (∀ a, (k0_off28 v94) a + S32x1x128x128.size a ≤ S32x64x128x128.size a)
instance k0_chk14.dec : ∀ (v94 : BitVec 32), Decidable (k0_chk14 v94) := fun v94 => decidable_of_iff' _ (Iff.of_eq (k0_chk14.eq_1 v94))
theorem k0_off28_inb : ∀ (v94 : BitVec 32) (k0_hw14 : k0_chk14 v94), ∀ a, (k0_off28 v94) a + S32x1x128x128.size a ≤ S32x64x128x128.size a := fun v94 k0_hw14 => k0_hw14

def k0_off29 (i : grid0.Coords) : Fin 1 → Nat :=
  let arg0 : BitVec 32 := BitVec.ofNat 32 (i 0).val
  let c8_i32 : BitVec 32 := 8#32
  let v0 : BitVec 32 := Scalar.muli arg0 c8_i32
  let c6_i32_118 : BitVec 32 := 6#32
  let v99 : BitVec 32 := Scalar.addi v0 c6_i32_118
  let v100 : Index := Scalar.indexCast v99
  ![v100.toNat]
def k0_off30 (v101 : BitVec 32) : Fin 4 → Nat :=
  let c0_i32_124 : BitVec 32 := 0#32
  let c0_i32_125 : BitVec 32 := 0#32
  let c0_i32_126 : BitVec 32 := 0#32
  ![0, v101.toNat, 0, 0]

def k0_chk15 (v101 : BitVec 32) : Prop :=
  (∀ a, (k0_off30 v101) a + S32x1x128x128.size a ≤ S32x64x128x128.size a)
instance k0_chk15.dec : ∀ (v101 : BitVec 32), Decidable (k0_chk15 v101) := fun v101 => decidable_of_iff' _ (Iff.of_eq (k0_chk15.eq_1 v101))
theorem k0_off30_inb : ∀ (v101 : BitVec 32) (k0_hw15 : k0_chk15 v101), ∀ a, (k0_off30 v101) a + S32x1x128x128.size a ≤ S32x64x128x128.size a := fun v101 k0_hw15 => k0_hw15

def k0_off31 (i : grid0.Coords) : Fin 1 → Nat :=
  let arg0 : BitVec 32 := BitVec.ofNat 32 (i 0).val
  let c8_i32 : BitVec 32 := 8#32
  let v0 : BitVec 32 := Scalar.muli arg0 c8_i32
  let c7_i32_127 : BitVec 32 := 7#32
  let v106 : BitVec 32 := Scalar.addi v0 c7_i32_127
  let v107 : Index := Scalar.indexCast v106
  ![v107.toNat]
def k0_off32 (v108 : BitVec 32) : Fin 4 → Nat :=
  let c0_i32_133 : BitVec 32 := 0#32
  let c0_i32_134 : BitVec 32 := 0#32
  let c0_i32_135 : BitVec 32 := 0#32
  ![0, v108.toNat, 0, 0]

def k0_chk16 (v108 : BitVec 32) : Prop :=
  (∀ a, (k0_off32 v108) a + S32x1x128x128.size a ≤ S32x64x128x128.size a)
instance k0_chk16.dec : ∀ (v108 : BitVec 32), Decidable (k0_chk16 v108) := fun v108 => decidable_of_iff' _ (Iff.of_eq (k0_chk16.eq_1 v108))
theorem k0_off32_inb : ∀ (v108 : BitVec 32) (k0_hw16 : k0_chk16 v108), ∀ a, (k0_off32 v108) a + S32x1x128x128.size a ≤ S32x64x128x128.size a := fun v108 k0_hw16 => k0_hw16

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S32x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  numel1_S1 : S1.numel = 1
  inb_S8_S1_0 : ∀ a, (![0] : Fin 1 → Nat) a + S1.size a ≤ S8.size a
  squeezes_S1_S_ : S1.Squeezes S_
  inb_S32x8x128x128_S32x1x128x128_0_0_0_0 : ∀ a, (![0, 0, 0, 0] : Fin 4 → Nat) a + S32x1x128x128.size a ≤ S32x8x128x128.size a
  inb_S8_S1_1 : ∀ a, (![1] : Fin 1 → Nat) a + S1.size a ≤ S8.size a
  inb_S32x8x128x128_S32x1x128x128_0_1_0_0 : ∀ a, (![0, 1, 0, 0] : Fin 4 → Nat) a + S32x1x128x128.size a ≤ S32x8x128x128.size a
  inb_S8_S1_2 : ∀ a, (![2] : Fin 1 → Nat) a + S1.size a ≤ S8.size a
  inb_S32x8x128x128_S32x1x128x128_0_2_0_0 : ∀ a, (![0, 2, 0, 0] : Fin 4 → Nat) a + S32x1x128x128.size a ≤ S32x8x128x128.size a
  inb_S8_S1_3 : ∀ a, (![3] : Fin 1 → Nat) a + S1.size a ≤ S8.size a
  inb_S32x8x128x128_S32x1x128x128_0_3_0_0 : ∀ a, (![0, 3, 0, 0] : Fin 4 → Nat) a + S32x1x128x128.size a ≤ S32x8x128x128.size a
  inb_S8_S1_4 : ∀ a, (![4] : Fin 1 → Nat) a + S1.size a ≤ S8.size a
  inb_S32x8x128x128_S32x1x128x128_0_4_0_0 : ∀ a, (![0, 4, 0, 0] : Fin 4 → Nat) a + S32x1x128x128.size a ≤ S32x8x128x128.size a
  inb_S8_S1_5 : ∀ a, (![5] : Fin 1 → Nat) a + S1.size a ≤ S8.size a
  inb_S32x8x128x128_S32x1x128x128_0_5_0_0 : ∀ a, (![0, 5, 0, 0] : Fin 4 → Nat) a + S32x1x128x128.size a ≤ S32x8x128x128.size a
  inb_S8_S1_6 : ∀ a, (![6] : Fin 1 → Nat) a + S1.size a ≤ S8.size a
  inb_S32x8x128x128_S32x1x128x128_0_6_0_0 : ∀ a, (![0, 6, 0, 0] : Fin 4 → Nat) a + S32x1x128x128.size a ≤ S32x8x128x128.size a
  inb_S8_S1_7 : ∀ a, (![7] : Fin 1 → Nat) a + S1.size a ≤ S8.size a
  inb_S32x8x128x128_S32x1x128x128_0_7_0_0 : ∀ a, (![0, 7, 0, 0] : Fin 4 → Nat) a + S32x1x128x128.size a ≤ S32x8x128x128.size a
  inb_S32x8x128x128_S32x8x128x128_0_0_0_0 : ∀ a, (![0, 0, 0, 0] : Fin 4 → Nat) a + S32x8x128x128.size a ≤ S32x8x128x128.size a
  h_S32x8x128x128 : 0 < S32x8x128x128.numel
  hcc0_scratch1 : 2 + S8.numel ≤ 10
  hrank0 : 0 < grid0.rank
  k0_off1_inb : ∀ i : grid0.Coords, ∀ a, (k0_off1 i) a + S1.size a ≤ S256.size a
  k0_off3_inb : ∀ i : grid0.Coords, ∀ a, (k0_off3 i) a + S1.size a ≤ S256.size a
  k0_off5_inb : ∀ i : grid0.Coords, ∀ a, (k0_off5 i) a + S1.size a ≤ S256.size a
  k0_off7_inb : ∀ i : grid0.Coords, ∀ a, (k0_off7 i) a + S1.size a ≤ S256.size a
  k0_off9_inb : ∀ i : grid0.Coords, ∀ a, (k0_off9 i) a + S1.size a ≤ S256.size a
  k0_off11_inb : ∀ i : grid0.Coords, ∀ a, (k0_off11 i) a + S1.size a ≤ S256.size a
  k0_off13_inb : ∀ i : grid0.Coords, ∀ a, (k0_off13 i) a + S1.size a ≤ S256.size a
  k0_off15_inb : ∀ i : grid0.Coords, ∀ a, (k0_off15 i) a + S1.size a ≤ S256.size a
  k0_off17_inb : ∀ i : grid0.Coords, ∀ a, (k0_off17 i) a + S1.size a ≤ S256.size a
  k0_off19_inb : ∀ i : grid0.Coords, ∀ a, (k0_off19 i) a + S1.size a ≤ S256.size a
  k0_off21_inb : ∀ i : grid0.Coords, ∀ a, (k0_off21 i) a + S1.size a ≤ S256.size a
  k0_off23_inb : ∀ i : grid0.Coords, ∀ a, (k0_off23 i) a + S1.size a ≤ S256.size a
  k0_off25_inb : ∀ i : grid0.Coords, ∀ a, (k0_off25 i) a + S1.size a ≤ S256.size a
  k0_off27_inb : ∀ i : grid0.Coords, ∀ a, (k0_off27 i) a + S1.size a ≤ S256.size a
  k0_off29_inb : ∀ i : grid0.Coords, ∀ a, (k0_off29 i) a + S1.size a ≤ S256.size a
  k0_off31_inb : ∀ i : grid0.Coords, ∀ a, (k0_off31 i) a + S1.size a ≤ S256.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S32x8x128x128.size a ≤ S32x256x128x128.size a
  hwx0_0 : ∀ i : grid0.Coords, EltTy.bits .f32 = 32 ∨ (Rect.block (s := S32x256x128x128) S32x8x128x128.size (cc0_transform_1 i) (hinb0_0 i)).WholeWords (EltTy.packing .f32)

variable [Facts₀]

abbrev cc0_scratch1 : DmaSems sig S8 := SemArray.consecutive 2 S8 hcc0_scratch1

abbrev spec0_0 : Pipeline.WinSpec sig grid0.rank :=
  Pipeline.WinSpec.ofSpec (Memref.whole main_v0) S32x8x128x128.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S32x64x128x128 : Shape := ⟨4, ![32, 64, 128, 128]⟩
abbrev S256 : Shape := ⟨1, ![256]⟩
abbrev S_ : Shape := ⟨0, ![]⟩
abbrev S256x1 : Shape := ⟨2, ![256, 1]⟩
abbrev S1 : Shape := ⟨1, ![1]⟩
abbrev S1x1 : Shape := ⟨2, ![1, 1]⟩
abbrev S32x256x128x128 : Shape := ⟨4, ![32, 256, 128, 128]⟩

abbrev nBuf : Space → Nat
  | .hbm => 28
  | .vmem => 0
  | .smem => 0
  | _ => 0

abbrev bufTy : (tb : Table) → Fin (tcTables nBuf tb) → BufTy
  | .hbm, ⟨0, _⟩ => ⟨S32x64x128x128, .f32⟩
  | .hbm, ⟨1, _⟩ => ⟨S256, .i32⟩
  | .hbm, ⟨2, _⟩ => ⟨S_, .i32⟩
  | .hbm, ⟨3, _⟩ => ⟨S256, .i32⟩
  | .hbm, ⟨4, _⟩ => ⟨S256, .i1⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S256, .i32⟩
  | .hbm, ⟨9, _⟩ => ⟨S256x1, .i32⟩
  | .hbm, ⟨10, _⟩ => ⟨S1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S1x1, .i32⟩
  | .hbm, ⟨15, _⟩ => ⟨S256x1, .i32⟩
  | .hbm, ⟨16, _⟩ => ⟨S256x1, .i1⟩
  | .hbm, ⟨17, _⟩ => ⟨S256x1, .i1⟩
  | .hbm, ⟨18, _⟩ => ⟨S_, .i1⟩
  | .hbm, ⟨19, _⟩ => ⟨S256, .i1⟩
  | .hbm, ⟨20, _⟩ => ⟨S32x256x128x128, .f32⟩
  | .hbm, ⟨21, _⟩ => ⟨S32x256x128x128, .i1⟩
  | .hbm, ⟨22, _⟩ => ⟨S_, .f32⟩
  | .hbm, ⟨23, _⟩ => ⟨S32x256x128x128, .f32⟩
  | .hbm, ⟨24, _⟩ => ⟨S32x256x128x128, .f32⟩
  | .hbm, ⟨25, _⟩ => ⟨S_, .f32⟩
  | .hbm, ⟨26, _⟩ => ⟨S32x256x128x128, .f32⟩
  | .hbm, ⟨27, _⟩ => ⟨S32x256x128x128, .f32⟩
  | _, _ => ⟨S32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  h_S_ : 0 < S_.numel
  bcast_S256_S32x256x128x128_1 : S256.BroadcastsInDim S32x256x128x128 (![1] : Fin 1 → Fin S32x256x128x128.rank)
  bcast_S_S32x256x128x128 : S_.BroadcastsInDim S32x256x128x128 (![] : Fin 0 → Fin S32x256x128x128.rank)
  gather_S32x64x128x128_S256x1_S32x256x128x128_023_1_n_n_1_1_321128128_wf : GatherDims.WF S32x64x128x128 S256x1 S32x256x128x128 [0, 2, 3] [1] [] [1] [] 1 ![32, 1, 128, 128]

variable [Facts₀]

def gather_S32x64x128x128_S256x1_S32x256x128x128_023_1_n_n_1_1_321128128 : GatherDims S32x64x128x128 S256x1 S32x256x128x128 where
  offsetDims := [0, 2, 3]
  collapsedSliceDims := [1]
  operandBatchingDims := []
  startIndicesBatchingDims := []
  startIndexMap := [1]
  indexVectorDim := 1
  sliceSizes := ![32, 1, 128, 128]
  wf := gather_S32x64x128x128_S256x1_S32x256x128x128_023_1_n_n_1_1_321128128_wf

class Facts : Prop extends Facts₀ where

variable [Facts]
-- ==== Proof.GatherSpec.lean ====
/-
  The specification both programs are compared with: a channel gather followed by a scalar scale.

  For an input `x` of shape [32, 64, 128, 128] and a table `perm` of 256 words, the result has shape
  [32, 256, 128, 128] and holds, at (b, j, h, w), the entry `x (b, perm j, h, w)` times one quarter:
  output channel `j` is input channel `perm j`, scaled. The channel is taken modulo 64 so that the function is
  total; on a table whose words are all below 64 (the domain of the claim) the reduction changes nothing
  (`chan_val`).
-/
import Idealize.ShloMosaic.PureOps
import Idealize.ShloMosaic.Lib.ValueIdx

noncomputable section

namespace Cert.GatherScale

open Idealize.ShloMosaic Idealize.ShloMosaic.ValueIdx

/-- The input's shape, the table's, and the result's. -/
abbrev SX : Shape := ⟨4, ![32, 64, 128, 128]⟩
abbrev SP : Shape := ⟨1, ![256]⟩
abbrev SO : Shape := ⟨4, ![32, 256, 128, 128]⟩

/-- The input channel that output channel `j` copies: the table's word at `j`, read unsigned, modulo 64. -/
def chan (perm : IVec SP 32) (j : Fin 256) : Fin 64 := ⟨(perm (ix1 j)).toNat % 64, Nat.mod_lt _ (by decide)⟩

/-- On a word below 64 the channel is the word itself. -/
theorem chan_val (perm : IVec SP 32) (j : Fin 256) (h : (perm (ix1 j)).toNat < 64) :
    (chan perm j).val = (perm (ix1 j)).toNat := Nat.mod_eq_of_lt h

/-- Where entry `i` of the result comes from: the same batch, row and column, in channel `chan perm (i 1)`. -/
def src (perm : IVec SP 32) (i : SO.Idx) : SX.Idx := ix4 (i 0) (chan perm (i 1)) (i 2) (i 3)

variable {F : FTy → Type} [FloatOps F]

/-- The gathered array: entry `i` is the input at `src perm i`. -/
def gathered (x : FVec F SX .f32) (perm : IVec SP 32) : FVec F SO .f32 := fun i => x (src perm i)

/-- THE SPECIFICATION: the gathered array times the constant one quarter (the word 0x3E800000), entry by entry. -/
def G (x : FVec F SX .f32) (perm : IVec SP 32) : FVec F SO .f32 :=
  mulf (gathered x perm) (broadcast SO (Scalar.ofBits .f32 0x3E800000#32))

end Cert.GatherScale

end
-- ==== Proof.PermRange.lean ====
/-
  The precondition, read back: on an admitted input every word of the table is below 64.

  The printed predicate is the conjunction of two all-reductions; its second conjunct reduces, by `and`,
  the 256 bits `0 ≤ perm j` and `perm j < 64` (both comparisons signed). When the predicate is one, each of
  those bits is one, and a 32-bit word that reads signed in [0, 64) reads unsigned below 64.
-/
import proofs.«423836_j24867860644348_3_alg».proof.Proof.Gen.Pre_finite_inputs
import proofs.«423836_j24867860644348_3_alg».proof.Proof.GatherSpec
import Idealize.ShloMosaic.Lib.ReduceAll

namespace Cert.GatherScale

open Idealize.ShloMosaic

/-- The rank-0 shape has one index. -/
instance : Subsingleton Cert.Pre_finite_inputs.S_.Idx := ⟨fun a b => funext fun d => d.elim0⟩

/-- A 32-bit word whose signed reading lies in [0, 64) has an unsigned reading below 64. -/
theorem toNat_lt_of_signed_range (w : BitVec 32) (hge : IntOp.cmpi .sge w 0#32 = 1#1)
    (hlt : IntOp.cmpi .slt w 64#32 = 1#1) : w.toNat < 64 := by
  rw [IntOp.cmpi_sge, show (0#32 : BitVec 32).toInt = 0 from by decide] at hge
  rw [IntOp.cmpi_slt, show (64#32 : BitVec 32).toInt = 64 from by decide] at hlt
  have hw := w.isLt
  rw [BitVec.toInt_eq_toNat_cond] at hge hlt
  split at hge <;> omega

/-- On an input the precondition admits, every word of the table is below 64 (read unsigned). -/
theorem perm_lt {F : FTy → Type} [FloatOps F] (x : FVec F Cert.Pre_finite_inputs.S32x64x128x128 .f32) (perm : IVec Cert.Pre_finite_inputs.S256 32)
    (h : Cert.Pre_finite_inputs.fn (F := F) x perm = fun _ => 1#1) (j : Cert.Pre_finite_inputs.S256.Idx) : (perm j).toNat < 64 := by
  have h0 := congrFun h ValueIdx.ix0
  dsimp only [Cert.Pre_finite_inputs.fn] at h0
  -- the second conjunct is the all-reduction over the table
  have h1 := (IntOp.andi_eq_one.1 h0).2
  -- so its operand is one at every index, in particular at `j`
  have h2 := Host.reduce_andi_all _ _ _ _ _ h1 j
  obtain ⟨hge, hlt⟩ := IntOp.andi_eq_one.1 h2
  exact toNat_lt_of_signed_range (perm j) hge hlt

end Cert.GatherScale
-- ==== Proof.KernelHyps.lean ====
/-
  The two hypotheses the generated frame of this program takes, from the precondition.

  The frame holds under the pipeline's side condition on the prefetched table, `Gen.Ok`, and under the sixteen side
  conditions the body assumes of the table words it loads at each grid point, `Gen.Hyps`. The first is `True`
  here: the output's index map reads no table. Each of the others says, of a word `w` read from the table, that the
  block [32, 1, 128, 128] at offset (0, w, 0, 0) lies inside the [32, 64, 128, 128] input: true as soon as `w` is
  below 64 (unsigned). Every word of the table is below 64 on an admitted input (`Cert.GatherScale.perm_lt`), and
  a word loaded through the whole table at a unit rectangle is one of the table's entries, whichever it is.
-/
import proofs.«423836_j24867860644348_3_alg».proof.Defs
import proofs.«423836_j24867860644348_3_alg».proof.Proof.Gen.Kernel.Frame.Runs
import proofs.«423836_j24867860644348_3_alg».proof.Proof.Gen.Pre_finite_inputs
import proofs.«423836_j24867860644348_3_alg».proof.Proof.PermRange

set_option maxRecDepth 16384

noncomputable section

namespace Cert.Kernel.HypsOfPre

open Cert.Kernel Cert.Kernel.Gen
open Idealize.ShloMosaic Idealize.ShloMosaic.TcCoe Idealize.SL.Sem

variable (m : (ℓ : Loc nD τ sig) → Buf (Elt Bits) ℓ)

/-- THE PRECONDITION DECODED: on every device, every word of the table is below 64. -/
theorem perm_lt_of_pre (h : Cert.Pre_Kernel m) (c : Dev nD) (j : S256.Idx) :
    (m ((c.tc : Thread nD τ).loc main_arg1) j).toNat < 64 :=
  Cert.GatherScale.perm_lt (F := Bits) (m ((c.tc : Thread nD τ).loc main_arg0)) (m ((c.tc : Thread nD τ).loc main_arg1)) (h c) j

/-- The table the region reads is device 0's: each of its words is below 64. -/
theorem tbl_lt (h : Cert.Pre_Kernel m) (j : S256.Idx) : (tbl m 0 j).toNat < 64 :=
  perm_lt_of_pre m h 0 j

/-- A word loaded from the whole table at a unit rectangle is the table's entry at that rectangle's index, so it
    is below 64 wherever the rectangle sits. -/
theorem word_lt (h : Cert.Pre_Kernel m) (off : Fin 1 → Nat) (inb : ∀ a, off a + S1.size a ≤ S256.size a) (h1 : 0 < S1.numel) :
    (tbM0_0.view.readAt (Elt Bits) (Rect.unit (s := S256) off S1.size inb).toLoadRect (tbl m 0) (Shape.Idx.first h1)).toNat < 64 :=
  tbl_lt m h ((Rect.unit (s := S256) off S1.size inb).idx (Shape.Idx.first h1))

/-- The block of one channel at channel `w` lies inside the 64-channel input when `w` is below 64. -/
theorem chk (w : BitVec 32) (hw : w.toNat < 64) :
    ∀ a, (![0, w.toNat, 0, 0] : Fin 4 → Nat) a + S32x1x128x128.size a ≤ S32x64x128x128.size a := by
  intro a
  fin_cases a <;> simp [S32x1x128x128, S32x64x128x128] <;> omega

/-- The pipeline's side condition on the table: none, the output's index map reads no table. -/
theorem ok_of_pre (h : Cert.Pre_Kernel m) : Ok m := trivial

/-- The sixteen side conditions the body assumes, at every grid point. -/
theorem hyps_of_pre (h : Cert.Pre_Kernel m) (hO : Ok m) : Hyps m hO :=
  Hyps.of
    (fun c t => chk _ (word_lt m h _ _ _)) (fun c t => chk _ (word_lt m h _ _ _))
    (fun c t => chk _ (word_lt m h _ _ _)) (fun c t => chk _ (word_lt m h _ _ _))
    (fun c t => chk _ (word_lt m h _ _ _)) (fun c t => chk _ (word_lt m h _ _ _))
    (fun c t => chk _ (word_lt m h _ _ _)) (fun c t => chk _ (word_lt m h _ _ _))
    (fun c t => chk _ (word_lt m h _ _ _)) (fun c t => chk _ (word_lt m h _ _ _))
    (fun c t => chk _ (word_lt m h _ _ _)) (fun c t => chk _ (word_lt m h _ _ _))
    (fun c t => chk _ (word_lt m h _ _ _)) (fun c t => chk _ (word_lt m h _ _ _))
    (fun c t => chk _ (word_lt m h _ _ _)) (fun c t => chk _ (word_lt m h _ _ _))

end Cert.Kernel.HypsOfPre

end
-- ==== Proof.KernelIdealHyps.lean ====
/-
  The two hypotheses the generated frame of this program takes, from the precondition.

  The frame holds under the pipeline's side condition on the prefetched table, `Gen.Ok`, and under the sixteen side
  conditions the body assumes of the table words it loads at each grid point, `Gen.Hyps`. The first is `True`
  here: the output's index map reads no table. Each of the others says, of a word `w` read from the table, that the
  block [32, 1, 128, 128] at offset (0, w, 0, 0) lies inside the [32, 64, 128, 128] input: true as soon as `w` is
  below 64 (unsigned). Every word of the table is below 64 on an admitted input (`Cert.GatherScale.perm_lt`), and
  a word loaded through the whole table at a unit rectangle is one of the table's entries, whichever it is.
-/
import proofs.«423836_j24867860644348_3_alg».proof.Defs
import proofs.«423836_j24867860644348_3_alg».proof.Proof.Gen.KernelIdeal.Frame.Runs
import proofs.«423836_j24867860644348_3_alg».proof.Proof.Gen.Pre_finite_inputs
import proofs.«423836_j24867860644348_3_alg».proof.Proof.PermRange

set_option maxRecDepth 16384

noncomputable section

namespace Cert.KernelIdeal.HypsOfPre

open Cert.KernelIdeal Cert.KernelIdeal.Gen
open Idealize.ShloMosaic Idealize.ShloMosaic.TcCoe Idealize.SL.Sem

variable (m : (ℓ : Loc nD τ sig) → Buf (Elt Ideal) ℓ)

/-- THE PRECONDITION DECODED: on every device, every word of the table is below 64. -/
theorem perm_lt_of_pre (h : Cert.Pre_KernelIdeal m) (c : Dev nD) (j : S256.Idx) :
    (m ((c.tc : Thread nD τ).loc main_arg1) j).toNat < 64 :=
  Cert.GatherScale.perm_lt (F := Ideal) (m ((c.tc : Thread nD τ).loc main_arg0)) (m ((c.tc : Thread nD τ).loc main_arg1)) (h c) j

/-- The table the region reads is device 0's: each of its words is below 64. -/
theorem tbl_lt (h : Cert.Pre_KernelIdeal m) (j : S256.Idx) : (tbl m 0 j).toNat < 64 :=
  perm_lt_of_pre m h 0 j

/-- A word loaded from the whole table at a unit rectangle is the table's entry at that rectangle's index, so it
    is below 64 wherever the rectangle sits. -/
theorem word_lt (h : Cert.Pre_KernelIdeal m) (off : Fin 1 → Nat) (inb : ∀ a, off a + S1.size a ≤ S256.size a) (h1 : 0 < S1.numel) :
    (tbM0_0.view.readAt (Elt Ideal) (Rect.unit (s := S256) off S1.size inb).toLoadRect (tbl m 0) (Shape.Idx.first h1)).toNat < 64 :=
  tbl_lt m h ((Rect.unit (s := S256) off S1.size inb).idx (Shape.Idx.first h1))

/-- The block of one channel at channel `w` lies inside the 64-channel input when `w` is below 64. -/
theorem chk (w : BitVec 32) (hw : w.toNat < 64) :
    ∀ a, (![0, w.toNat, 0, 0] : Fin 4 → Nat) a + S32x1x128x128.size a ≤ S32x64x128x128.size a := by
  intro a
  fin_cases a <;> simp [S32x1x128x128, S32x64x128x128] <;> omega

/-- The pipeline's side condition on the table: none, the output's index map reads no table. -/
theorem ok_of_pre (h : Cert.Pre_KernelIdeal m) : Ok m := trivial

/-- The sixteen side conditions the body assumes, at every grid point. -/
theorem hyps_of_pre (h : Cert.Pre_KernelIdeal m) (hO : Ok m) : Hyps m hO :=
  Hyps.of
    (fun c t => chk _ (word_lt m h _ _ _)) (fun c t => chk _ (word_lt m h _ _ _))
    (fun c t => chk _ (word_lt m h _ _ _)) (fun c t => chk _ (word_lt m h _ _ _))
    (fun c t => chk _ (word_lt m h _ _ _)) (fun c t => chk _ (word_lt m h _ _ _))
    (fun c t => chk _ (word_lt m h _ _ _)) (fun c t => chk _ (word_lt m h _ _ _))
    (fun c t => chk _ (word_lt m h _ _ _)) (fun c t => chk _ (word_lt m h _ _ _))
    (fun c t => chk _ (word_lt m h _ _ _)) (fun c t => chk _ (word_lt m h _ _ _))
    (fun c t => chk _ (word_lt m h _ _ _)) (fun c t => chk _ (word_lt m h _ _ _))
    (fun c t => chk _ (word_lt m h _ _ _)) (fun c t => chk _ (word_lt m h _ _ _))

end Cert.KernelIdeal.HypsOfPre

end
-- ==== Proof.KernelIdealValue.lean ====
/-
  The kernel's value, from its blocks to the whole result array.

  The idealized kernel has one output window: the result array [32, 256, 128, 128] is written back in 32 blocks of
  shape [32, 8, 128, 128], the block of grid point `t` being channels `8 t … 8 t + 7` (block index `(0, t, 0, 0)`,
  whatever the table holds: the window's index map reads no table). Given that at every point the body leaves in the
  output's staging buffer the point's block of the specification `Cert.GatherScale.G` (the hypothesis `hblk` of
  `run_of_blocks`), the result array after the run IS the specification:

  * `index_facts`, `mem_blk`: the block of point `t`, as ranges of coordinates;
  * `covered`: every index of the array lies in the block of point `(its channel) / 8`;
  * `flushed_eq`, `final`: what each point writes back is its block of the specification, and the blocks cover the
    array, so the array ends holding the specification;
  * `run_of_blocks`: the frame run read at the result array and at the two arguments, which no transfer writes.

  The structural facts about the window are proved at ANY admissible contents `a` of the prefetched table and used at
  the contents read off the launch memory.
-/
import proofs.«423836_j24867860644348_3_alg».proof.Proof.KernelIdealFrame
import proofs.«423836_j24867860644348_3_alg».proof.Proof.GatherSpec
import Idealize.ShloMosaic.Lib.Pipeline.Value

noncomputable section

namespace Cert.KernelIdeal.KernelValue

open Cert.KernelIdeal Cert.KernelIdeal.Gen Cert.KernelIdeal.GenP
open Idealize.ShloMosaic Idealize.ShloMosaic.TcCoe Idealize.SL.Sem
open Idealize.ShloMosaic.Pipeline (Dat)

/-! ## The one output window, at any contents of the table

The window's index map reads no table: at grid point `t` its block index is `(0, t, 0, 0)`, so the block is the
eight channels `8 t … 8 t + 7` of the whole batch, every row and every column. -/

/-- The block index at point `t`, axis by axis (decided over the 32 points). -/
theorem index_facts (a : (pcfg0 (F := Ideal)).Adm) : ∀ t : Fin (cfg0 a).N,
    ((cfg0 a).win 0).index t (0 : Fin 4) = 0 ∧ ((cfg0 a).win 0).index t (1 : Fin 4) = t.val
    ∧ ((cfg0 a).win 0).index t (2 : Fin 4) = 0 ∧ ((cfg0 a).win 0).index t (3 : Fin 4) = 0 :=
  (by decide +kernel : ∀ t : Fin grid0.N, cc0_transform_1 (grid0.coords t) (0 : Fin 4) = 0 ∧ cc0_transform_1 (grid0.coords t) (1 : Fin 4) = t.val
    ∧ cc0_transform_1 (grid0.coords t) (2 : Fin 4) = 0 ∧ cc0_transform_1 (grid0.coords t) (3 : Fin 4) = 0)

/-- An index of the result array lies in point `t`'s block iff each coordinate lies in the block's range on its axis. -/
theorem mem_blk (a : (pcfg0 (F := Ideal)).Adm) (t : Fin (cfg0 a).N) (i : S32x256x128x128.Idx) :
    i ∈ (((cfg0 a).win 0).blk t).view.set ↔ ∀ ax : Fin 4, ((cfg0 a).win 0).index t ax * S32x8x128x128.size ax ≤ (i ax).val
      ∧ (i ax).val < ((cfg0 a).win 0).index t ax * S32x8x128x128.size ax + S32x8x128x128.size ax := by
  have inb : ∀ ax : Fin 4, ((cfg0 a).win 0).index t ax * S32x8x128x128.size ax + S32x8x128x128.size ax ≤ S32x256x128x128.size ax :=
    fun ax => Pipeline.Clip.inb (((cfg0 a).win 0).hclip (grid0.coords t) ax)
  show i ∈ ((View.whole main_v0).slice (Rect.unit (s := S32x256x128x128) (fun ax => ((cfg0 a).win 0).index t ax * S32x8x128x128.size ax) S32x8x128x128.size inb)).set ↔ _
  rw [View.set_slice_whole, Rect.mem_set_unit]
  exact Iff.rfl

/-- Every index of the result array is in the block of the point its channel names: channel `j` is written at point `j / 8`. -/
theorem covered (a : (pcfg0 (F := Ideal)).Adm) (i : S32x256x128x128.Idx) :
    ∃ t : Fin (cfg0 a).N, ((cfg0 a).win 0).flush t = true ∧ i ∈ (((cfg0 a).win 0).blk t).view.set := by
  have h0 : (i 0).val < 32 := (i 0).isLt
  have h1 : (i 1).val < 256 := (i 1).isLt
  have h2 : (i 2).val < 128 := (i 2).isLt
  have h3 : (i 3).val < 128 := (i 3).isLt
  have hN : (cfg0 a).N = 32 := N_0
  let t : Fin (cfg0 a).N := ⟨(i 1).val / 8, by omega⟩
  obtain ⟨e0, e1, e2, e3⟩ := index_facts a t
  have e1' : ((cfg0 a).win 0).index t (1 : Fin 4) = (i 1).val / 8 := e1
  refine ⟨t, flush0_0 a t, ?_⟩
  rw [mem_blk]
  intro ax
  match ax with
  | ⟨0, _⟩ => show ((cfg0 a).win 0).index t (0 : Fin 4) * 32 ≤ (i 0).val ∧ (i 0).val < ((cfg0 a).win 0).index t (0 : Fin 4) * 32 + 32; omega
  | ⟨1, _⟩ => show ((cfg0 a).win 0).index t (1 : Fin 4) * 8 ≤ (i 1).val ∧ (i 1).val < ((cfg0 a).win 0).index t (1 : Fin 4) * 8 + 8; omega
  | ⟨2, _⟩ => show ((cfg0 a).win 0).index t (2 : Fin 4) * 128 ≤ (i 2).val ∧ (i 2).val < ((cfg0 a).win 0).index t (2 : Fin 4) * 128 + 128; omega
  | ⟨3, _⟩ => show ((cfg0 a).win 0).index t (3 : Fin 4) * 128 ≤ (i 3).val ∧ (i 3).val < ((cfg0 a).win 0).index t (3 : Fin 4) * 128 + 128; omega

/-! ## From the blocks to the array, and the run -/

section run

variable (m : (ℓ : Loc nD τ sig) → Buf (Elt Ideal) ℓ) (ρ : Dev nD → PrngReg) (hO : Ok m) (hH : Hyps m hO)

/-- The specification at the launch contents of core `c`'s two arguments. -/
abbrev spec (c : Dev nD) : Buf (Elt Ideal) ((c.tc : Thread nD τ).loc main_v0) :=
  Cert.GatherScale.G (F := Ideal) (m ((c.tc : Thread nD τ).loc main_arg0)) (m ((c.tc : Thread nD τ).loc main_arg1))

/-- What point `t` writes back is block `t` of the specification: the window's blocks are uncut, so what is written back
    is all of what the body left in the staging buffer. -/
theorem flushed_eq
    (hblk : ∀ (c : Dev nD) (t : Fin (cfgM m hO).N), outsAt0 m hO hH c t = (((cfgM m hO).win 0).blk t).view.read (Elt Ideal) (spec m c))
    (c : Dev nD) (t : Fin (cfgM m hO).N) :
    (dats m hO hH 0 c).flushed 0 t = (((cfgM m hO).win 0).blk t).view.read (Elt Ideal) (spec m c) := by
  show ((cfgM m hO).win 0).cut ((cfgM m hO).grid.coords t) ((dats m hO hH 0 c).after 0 t) = _
  rw [after0_0]
  exact hblk c t

/-- The result array after the run is the specification: the 32 blocks cover it. -/
theorem final
    (hblk : ∀ (c : Dev nD) (t : Fin (cfgM m hO).N), outsAt0 m hO hH c t = (((cfgM m hO).win 0).blk t).view.read (Elt Ideal) (spec m c))
    (c : Dev nD) : (dats m hO hH 0 c).arrAt 0 (cfgM m hO).N = spec m c :=
  (dats m hO hH 0 c).arrAt_eq_of_cover 0 (spec m c) (fun t _ => flushed_eq m hO hH hblk c t) (covered (adm m hO))

end run

/-- THE KERNEL'S RUN, from the blocks: if at every point the body leaves the point's block of the specification in the
    output's staging buffer, every weakly fair execution ends with the result array at the specification and both
    arguments as launched. -/
theorem run_of_blocks (m : (ℓ : Loc nD τ sig) → Buf (Elt Ideal) ℓ) (ρ : Dev nD → PrngReg) (hO : Ok m) (hH : Hyps m hO)
    (hblk : ∀ (c : Dev nD) (t : Fin (cfgM m hO).N), outsAt0 m hO hH c t
        = (((cfgM m hO).win 0).blk t).view.read (Elt Ideal) (Cert.GatherScale.G (F := Ideal) (m ((c.tc : Thread nD τ).loc main_arg0)) (m ((c.tc : Thread nD τ).loc main_arg1)))) :
    θ_run (defs (F := Ideal)) (onTc (τ := τ) (main (F := Ideal))) ⟨m, fun _ => 0, ρ⟩ (fun r => ∀ c : Dev nD,
      r.2.mem ((c.tc : Thread nD τ).loc main_v0) = Cert.GatherScale.G (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 0).trans (final m hO hH hblk c),
      ((h c).2 main_arg0 (by decide : main_arg0 ∈ Pipeline.restRefs sig spec0)).trans (V_main_arg0 m c),
      ((h c).2 main_arg1 (by decide : main_arg1 ∈ Pipeline.restRefs sig spec0)).trans (V_main_arg1 m c)⟩)
    (run_main m ρ hO hH)

end Cert.KernelIdeal.KernelValue

end
-- ==== Proof.KernelIdealPoint.lean ====
/-
  What the body leaves in the output's staging buffer at one grid point.

  At point `n` of the grid (32 points) the body reads the eight table words at positions `8 n + k`, `k < 8`,
  copies channel `word k` of the operand `x` into channel `k` of a scratch block of shape [32, 8, 128, 128], waits for
  all eight copies, and stores the scratch block times one quarter. So the block it leaves is
      (b, k, h, w)  ↦  x (b, word k, h, w) · ¼ ,        word k = perm (8 n + k)
  (`blockAt`, the channel read unsigned and modulo 64 so that the function is total; the body's own side condition
  makes every word it reads smaller than 64). The scratch block after the eight copies is read back as ONE function:
  eight pieces, piece `k` the restriction of that function to channel `k`, tile the block (`canon_channels`).
-/
import proofs.«423836_j24867860644348_3_alg».proof.Proof.KernelIdealFrame
import Idealize.ShloMosaic.Lib.Pipeline.Value
import Idealize.ShloMosaic.Lib.ValueIdx

set_option maxRecDepth 16384

noncomputable section

namespace Cert.KernelIdeal.PointValue

open Cert.KernelIdeal Cert.KernelIdeal.Gen Cert.KernelIdeal.GenP
open Idealize.ShloMosaic Idealize.ShloMosaic.TcCoe Idealize.ShloMosaic.Tactic Idealize.SL.Sem Idealize.ShloMosaic.ValueIdx

variable {F : FTy → Type} [FloatOps F] [∀ e, Nonempty (Elt F e)]

/-- The offset of a rectangle that starts at the block's origin. -/
theorem origin4 : (![0, 0, 0, 0] : Fin S32x8x128x128.rank → Nat) = fun _ => 0 := by funext a; fin_cases a <;> rfl

/-- The canon of eight channel pieces, each the restriction of one function `G` to its channel, is `G`: the eight
    channels tile the block. -/
theorem canon_channels (G : S32x8x128x128.Idx → Elt F .f32)
    (p0 p1 p2 p3 p4 p5 p6 p7 : S32x1x128x128.Idx → Elt F .f32)
    (h0 : ∀ x, p0 x = G ((Rect.unit (s := S32x8x128x128) ![0, 0, 0, 0] S32x1x128x128.size inb_S32x8x128x128_S32x1x128x128_0_0_0_0).emb x))
    (h1 : ∀ x, p1 x = G ((Rect.unit (s := S32x8x128x128) ![0, 1, 0, 0] S32x1x128x128.size inb_S32x8x128x128_S32x1x128x128_0_1_0_0).emb x))
    (h2 : ∀ x, p2 x = G ((Rect.unit (s := S32x8x128x128) ![0, 2, 0, 0] S32x1x128x128.size inb_S32x8x128x128_S32x1x128x128_0_2_0_0).emb x))
    (h3 : ∀ x, p3 x = G ((Rect.unit (s := S32x8x128x128) ![0, 3, 0, 0] S32x1x128x128.size inb_S32x8x128x128_S32x1x128x128_0_3_0_0).emb x))
    (h4 : ∀ x, p4 x = G ((Rect.unit (s := S32x8x128x128) ![0, 4, 0, 0] S32x1x128x128.size inb_S32x8x128x128_S32x1x128x128_0_4_0_0).emb x))
    (h5 : ∀ x, p5 x = G ((Rect.unit (s := S32x8x128x128) ![0, 5, 0, 0] S32x1x128x128.size inb_S32x8x128x128_S32x1x128x128_0_5_0_0).emb x))
    (h6 : ∀ x, p6 x = G ((Rect.unit (s := S32x8x128x128) ![0, 6, 0, 0] S32x1x128x128.size inb_S32x8x128x128_S32x1x128x128_0_6_0_0).emb x))
    (h7 : ∀ x, p7 x = G ((Rect.unit (s := S32x8x128x128) ![0, 7, 0, 0] S32x1x128x128.size inb_S32x8x128x128_S32x1x128x128_0_7_0_0).emb x)) :
    View.canon [(⟨Rect.unit (s := S32x8x128x128) ![0, 7, 0, 0] S32x1x128x128.size inb_S32x8x128x128_S32x1x128x128_0_7_0_0, p7⟩ : View.Piece (Elt F) S32x8x128x128 .f32),
      (⟨Rect.unit (s := S32x8x128x128) ![0, 6, 0, 0] S32x1x128x128.size inb_S32x8x128x128_S32x1x128x128_0_6_0_0, p6⟩ : View.Piece (Elt F) S32x8x128x128 .f32),
      (⟨Rect.unit (s := S32x8x128x128) ![0, 5, 0, 0] S32x1x128x128.size inb_S32x8x128x128_S32x1x128x128_0_5_0_0, p5⟩ : View.Piece (Elt F) S32x8x128x128 .f32),
      (⟨Rect.unit (s := S32x8x128x128) ![0, 4, 0, 0] S32x1x128x128.size inb_S32x8x128x128_S32x1x128x128_0_4_0_0, p4⟩ : View.Piece (Elt F) S32x8x128x128 .f32),
      (⟨Rect.unit (s := S32x8x128x128) ![0, 3, 0, 0] S32x1x128x128.size inb_S32x8x128x128_S32x1x128x128_0_3_0_0, p3⟩ : View.Piece (Elt F) S32x8x128x128 .f32),
      (⟨Rect.unit (s := S32x8x128x128) ![0, 2, 0, 0] S32x1x128x128.size inb_S32x8x128x128_S32x1x128x128_0_2_0_0, p2⟩ : View.Piece (Elt F) S32x8x128x128 .f32),
      (⟨Rect.unit (s := S32x8x128x128) ![0, 1, 0, 0] S32x1x128x128.size inb_S32x8x128x128_S32x1x128x128_0_1_0_0, p1⟩ : View.Piece (Elt F) S32x8x128x128 .f32),
      (⟨Rect.unit (s := S32x8x128x128) ![0, 0, 0, 0] S32x1x128x128.size inb_S32x8x128x128_S32x1x128x128_0_0_0_0, p0⟩ : View.Piece (Elt F) S32x8x128x128 .f32)] = G := by
  funext y
  refine View.canon_apply_of_pieces G _ ?_ y (View.cover_of_tiledL (s := S32x8x128x128) _ S32x1x128x128.size (by sl_kernel_rfl) y)
  intro p hp x
  simp only [List.mem_cons, List.not_mem_nil, or_false] at hp
  rcases hp with rfl | rfl | rfl | rfl | rfl | rfl | rfl | rfl
  exacts [h7 x, h6 x, h5 x, h4 x, h3 x, h2 x, h1 x, h0 x]

/-- The table position the body reads for channel `k` of point `n`: the word arithmetic `n * 8 + k` does not wrap. -/
theorem word_pos : ∀ n : Fin 32,
    (Scalar.indexCast (Scalar.addi (Scalar.muli (BitVec.ofNat 32 n.val) 8#32) 0#32)).toNat = 8 * n.val + 0
    ∧ (Scalar.indexCast (Scalar.addi (Scalar.muli (BitVec.ofNat 32 n.val) 8#32) 1#32)).toNat = 8 * n.val + 1
    ∧ (Scalar.indexCast (Scalar.addi (Scalar.muli (BitVec.ofNat 32 n.val) 8#32) 2#32)).toNat = 8 * n.val + 2
    ∧ (Scalar.indexCast (Scalar.addi (Scalar.muli (BitVec.ofNat 32 n.val) 8#32) 3#32)).toNat = 8 * n.val + 3
    ∧ (Scalar.indexCast (Scalar.addi (Scalar.muli (BitVec.ofNat 32 n.val) 8#32) 4#32)).toNat = 8 * n.val + 4
    ∧ (Scalar.indexCast (Scalar.addi (Scalar.muli (BitVec.ofNat 32 n.val) 8#32) 5#32)).toNat = 8 * n.val + 5
    ∧ (Scalar.indexCast (Scalar.addi (Scalar.muli (BitVec.ofNat 32 n.val) 8#32) 6#32)).toNat = 8 * n.val + 6
    ∧ (Scalar.indexCast (Scalar.addi (Scalar.muli (BitVec.ofNat 32 n.val) 8#32) 7#32)).toNat = 8 * n.val + 7 := by decide

/-- Position `8 n + k` of the table. -/
def tabIdx (n : Fin 32) (k : Nat) (hk : k < 8) : S256.Idx := ix1 (⟨8 * n.val + k, by have := n.isLt; omega⟩ : Fin 256)

/-- The block the body leaves at point `n`, before the scale: channel `k` is the operand's channel `perm (8 n + k)`
    (read unsigned, modulo 64). -/
def blockAt (x : S32x64x128x128.Idx → Elt F .f32) (perm : S256.Idx → BitVec 32) (n : Fin 32) : S32x8x128x128.Idx → Elt F .f32 :=
  fun y => x (ix4 (y 0) (⟨(perm (tabIdx n (y 1).val (y 1).isLt)).toNat % 64, Nat.mod_lt _ (by decide)⟩ : Fin 64) (y 2) (y 3))

/-- A unit rectangle of the table has one index, its offset: the word read through it at offset `8 n + k` is the
    table's word at that position. -/
theorem word_eq (c : Dev nD) (xt0 : TbBuf0 (F := F) c tbM0_0) (i : grid0.Coords) (off : Fin 1 → Nat) (k : Nat) (hk : k < 8)
    (hoff : off 0 = 8 * (i 0).val + k) (inb : ∀ a, off a + S1.size a ≤ S256.size a) (h1 : 0 < S1.numel) :
    tbM0_0.view.readAt (Elt F) (Rect.unit (s := S256) off S1.size inb).toLoadRect xt0 (Shape.Idx.first h1)
      = xt0 (tabIdx (i 0) k hk) := by
  refine congrArg xt0 (funext fun a => Fin.ext ?_)
  fin_cases a
  show off 0 + 1 * (Shape.Idx.first h1 (0 : Fin 1)).val = 8 * (i 0).val + k
  have h0 : (Shape.Idx.first h1 (0 : Fin 1)).val < 1 := (Shape.Idx.first h1 (0 : Fin 1)).isLt
  omega

/-- One landed channel: the operand read through its slice at channel `w` (a word below 64, the table's word at
    position `8 n + k`), at a local index, is the block function on channel `k` of the block. -/
theorem piece_eq (c : Dev nD) (fh0 : HbBuf0 (F := F) c hbM0_0) (xt0 : TbBuf0 (F := F) c tbM0_0) (i : grid0.Coords)
    (k : Nat) (hk : k < 8) (w : BitVec 32) (hw : w = xt0 (tabIdx (i 0) k hk)) (hlt : w.toNat < 64)
    (off : Fin 4 → Nat) (hoff : off = ![0, w.toNat, 0, 0]) (inb : ∀ a, off a + S32x1x128x128.size a ≤ S32x64x128x128.size a) (hs)
    (offb : Fin 4 → Nat) (hoffb : offb = ![0, k, 0, 0]) (inbb : ∀ a, offb a + S32x1x128x128.size a ≤ S32x8x128x128.size a)
    (x : S32x1x128x128.Idx) :
    ReadAs.same.apply (View.read (Elt F) ((Memref.whole main_arg0).slice (Rect.unit (s := S32x64x128x128) off S32x1x128x128.size inb) hs).view fh0) x
      = blockAt fh0 xt0 (i 0) ((Rect.unit (s := S32x8x128x128) offb S32x1x128x128.size inbb).emb x) := by
  subst hoff hoffb
  show fh0 ((Rect.unit (s := S32x64x128x128) ![0, w.toNat, 0, 0] S32x1x128x128.size inb).idx x) = _
  unfold blockAt
  have hx1 : (x 1).val < 1 := (x 1).isLt
  have he1 : (((Rect.unit (s := S32x8x128x128) ![0, k, 0, 0] S32x1x128x128.size inbb).emb x) 1).val = k + 1 * (x 1).val := rfl
  have hk1 : (((Rect.unit (s := S32x8x128x128) ![0, k, 0, 0] S32x1x128x128.size inbb).emb x) 1).val = k := by omega
  have htab : tabIdx (i 0) (((Rect.unit (s := S32x8x128x128) ![0, k, 0, 0] S32x1x128x128.size inbb).emb x) 1).val
      (((Rect.unit (s := S32x8x128x128) ![0, k, 0, 0] S32x1x128x128.size inbb).emb x) 1).isLt = tabIdx (i 0) k hk := by
    unfold tabIdx; refine congrArg ix1 (Fin.ext ?_); show 8 * (i 0).val + _ = 8 * (i 0).val + k; omega
  refine congrArg fh0 (funext fun a => Fin.ext ?_)
  fin_cases a
  · show 0 + 1 * (x 0).val = 0 + 1 * (x 0).val; rfl
  · show w.toNat + 1 * (x 1).val
      = (xt0 (tabIdx (i 0) (((Rect.unit (s := S32x8x128x128) ![0, k, 0, 0] S32x1x128x128.size inbb).emb x) 1).val
          (((Rect.unit (s := S32x8x128x128) ![0, k, 0, 0] S32x1x128x128.size inbb).emb x) 1).isLt)).toNat % 64
    rw [htab, ← hw, Nat.mod_eq_of_lt hlt]; omega
  · show 0 + 1 * (x 2).val = 0 + 1 * (x 2).val; rfl
  · show 0 + 1 * (x 3).val = 0 + 1 * (x 3).val; rfl

/-- THE POINT: what the run leaves in the output's staging buffer at coordinates `i` is the block function of the
    operand's contents `fh0` and the table's contents `xt0` at point `i 0`, times one quarter. -/
theorem out0_eq (c : Dev nD) (i : grid0.Coords) (arg3 : Memref sig .tc .vmem S32x8x128x128 .f32) (harg3 : arg3.IsWhole) (arg4 : Memref sig .tc .vmem S32x8x128x128 .f32) (harg4 : arg4.IsWhole)
    (xt0 : TbBuf0 (F := F) c tbM0_0) (fh0 : HbBuf0 (F := F) c hbM0_0) (k0_hw1 : k0_chk1 (tbM0_0.view.readAt (Elt F) (Rect.unit (s := S256) (k0_off1 i) S1.size (k0_off1_inb i)).toLoadRect xt0 (Shape.Idx.first (numel1_S1.symm ▸ Nat.one_pos)))) (k0_hw2 : k0_chk2 (tbM0_0.view.readAt (Elt F) (Rect.unit (s := S256) (k0_off3 i) S1.size (k0_off3_inb i)).toLoadRect xt0 (Shape.Idx.first (numel1_S1.symm ▸ Nat.one_pos)))) (k0_hw3 : k0_chk3 (tbM0_0.view.readAt (Elt F) (Rect.unit (s := S256) (k0_off5 i) S1.size (k0_off5_inb i)).toLoadRect xt0 (Shape.Idx.first (numel1_S1.symm ▸ Nat.one_pos)))) (k0_hw4 : k0_chk4 (tbM0_0.view.readAt (Elt F) (Rect.unit (s := S256) (k0_off7 i) S1.size (k0_off7_inb i)).toLoadRect xt0 (Shape.Idx.first (numel1_S1.symm ▸ Nat.one_pos)))) (k0_hw5 : k0_chk5 (tbM0_0.view.readAt (Elt F) (Rect.unit (s := S256) (k0_off9 i) S1.size (k0_off9_inb i)).toLoadRect xt0 (Shape.Idx.first (numel1_S1.symm ▸ Nat.one_pos)))) (k0_hw6 : k0_chk6 (tbM0_0.view.readAt (Elt F) (Rect.unit (s := S256) (k0_off11 i) S1.size (k0_off11_inb i)).toLoadRect xt0 (Shape.Idx.first (numel1_S1.symm ▸ Nat.one_pos)))) (k0_hw7 : k0_chk7 (tbM0_0.view.readAt (Elt F) (Rect.unit (s := S256) (k0_off13 i) S1.size (k0_off13_inb i)).toLoadRect xt0 (Shape.Idx.first (numel1_S1.symm ▸ Nat.one_pos)))) (k0_hw8 : k0_chk8 (tbM0_0.view.readAt (Elt F) (Rect.unit (s := S256) (k0_off15 i) S1.size (k0_off15_inb i)).toLoadRect xt0 (Shape.Idx.first (numel1_S1.symm ▸ Nat.one_pos)))) (k0_hw9 : k0_chk9 (tbM0_0.view.readAt (Elt F) (Rect.unit (s := S256) (k0_off17 i) S1.size (k0_off17_inb i)).toLoadRect xt0 (Shape.Idx.first (numel1_S1.symm ▸ Nat.one_pos)))) (k0_hw10 : k0_chk10 (tbM0_0.view.readAt (Elt F) (Rect.unit (s := S256) (k0_off19 i) S1.size (k0_off19_inb i)).toLoadRect xt0 (Shape.Idx.first (numel1_S1.symm ▸ Nat.one_pos)))) (k0_hw11 : k0_chk11 (tbM0_0.view.readAt (Elt F) (Rect.unit (s := S256) (k0_off21 i) S1.size (k0_off21_inb i)).toLoadRect xt0 (Shape.Idx.first (numel1_S1.symm ▸ Nat.one_pos)))) (k0_hw12 : k0_chk12 (tbM0_0.view.readAt (Elt F) (Rect.unit (s := S256) (k0_off23 i) S1.size (k0_off23_inb i)).toLoadRect xt0 (Shape.Idx.first (numel1_S1.symm ▸ Nat.one_pos)))) (k0_hw13 : k0_chk13 (tbM0_0.view.readAt (Elt F) (Rect.unit (s := S256) (k0_off25 i) S1.size (k0_off25_inb i)).toLoadRect xt0 (Shape.Idx.first (numel1_S1.symm ▸ Nat.one_pos)))) (k0_hw14 : k0_chk14 (tbM0_0.view.readAt (Elt F) (Rect.unit (s := S256) (k0_off27 i) S1.size (k0_off27_inb i)).toLoadRect xt0 (Shape.Idx.first (numel1_S1.symm ▸ Nat.one_pos)))) (k0_hw15 : k0_chk15 (tbM0_0.view.readAt (Elt F) (Rect.unit (s := S256) (k0_off29 i) S1.size (k0_off29_inb i)).toLoadRect xt0 (Shape.Idx.first (numel1_S1.symm ▸ Nat.one_pos)))) (k0_hw16 : k0_chk16 (tbM0_0.view.readAt (Elt F) (Rect.unit (s := S256) (k0_off31 i) S1.size (k0_off31_inb i)).toLoadRect xt0 (Shape.Idx.first (numel1_S1.symm ▸ Nat.one_pos)))) :
    out0_A_0 c i arg3 harg3 arg4 harg4 xt0 fh0 k0_hw1 k0_hw2 k0_hw3 k0_hw4 k0_hw5 k0_hw6 k0_hw7 k0_hw8 k0_hw9 k0_hw10 k0_hw11 k0_hw12 k0_hw13 k0_hw14 k0_hw15 k0_hw16
      = mulf (blockAt fh0 xt0 (i 0)) (broadcast S32x8x128x128 (Scalar.ofBits .f32 0x3E800000#32)) := by
  unfold out0_A_0
  rw [View.read_writes_eq_canon _ _ _ (cover0_A_0 c i arg3 harg3 arg4 harg4 xt0 fh0 k0_hw1 k0_hw2 k0_hw3 k0_hw4 k0_hw5 k0_hw6 k0_hw7 k0_hw8 k0_hw9 k0_hw10 k0_hw11 k0_hw12 k0_hw13 k0_hw14 k0_hw15 k0_hw16)]
  unfold kernelRun0_A
  dsimp only
  sl_unfold_words
  rw [View.canon_unit_zero origin4, View.readCov_eq_canon']
  unfold k0_pay1
  refine congrArg (fun v => mulf v (broadcast S32x8x128x128 (Scalar.ofBits .f32 0x3E800000#32))) ?_
  funext j
  have hidx : (Rect.unit (s := S32x8x128x128) ![0, 0, 0, 0] S32x8x128x128.size inb_S32x8x128x128_S32x8x128x128_0_0_0_0).toLoadRect.idx j = j := by
    funext a; apply Fin.ext; fin_cases a <;> (show 0 + 1 * _ = _; omega)
  rw [hidx]
  refine congrFun (canon_channels (blockAt fh0 xt0 (i 0)) _ _ _ _ _ _ _ _ ?_ ?_ ?_ ?_ ?_ ?_ ?_ ?_) j
  · intro x; exact piece_eq c fh0 xt0 i 0 (by decide) _ (word_eq c xt0 i _ 0 (by decide) (word_pos (i 0)).1 _ _) (by have h := k0_hw1 1; exact Nat.lt_of_succ_le h) _ rfl _ _ _ rfl _ x
  · intro x; exact piece_eq c fh0 xt0 i 1 (by decide) _ (word_eq c xt0 i _ 1 (by decide) (word_pos (i 0)).2.1 _ _) (by have h := k0_hw2 1; exact Nat.lt_of_succ_le h) _ rfl _ _ _ rfl _ x
  · intro x; exact piece_eq c fh0 xt0 i 2 (by decide) _ (word_eq c xt0 i _ 2 (by decide) (word_pos (i 0)).2.2.1 _ _) (by have h := k0_hw3 1; exact Nat.lt_of_succ_le h) _ rfl _ _ _ rfl _ x
  · intro x; exact piece_eq c fh0 xt0 i 3 (by decide) _ (word_eq c xt0 i _ 3 (by decide) (word_pos (i 0)).2.2.2.1 _ _) (by have h := k0_hw4 1; exact Nat.lt_of_succ_le h) _ rfl _ _ _ rfl _ x
  · intro x; exact piece_eq c fh0 xt0 i 4 (by decide) _ (word_eq c xt0 i _ 4 (by decide) (word_pos (i 0)).2.2.2.2.1 _ _) (by have h := k0_hw5 1; exact Nat.lt_of_succ_le h) _ rfl _ _ _ rfl _ x
  · intro x; exact piece_eq c fh0 xt0 i 5 (by decide) _ (word_eq c xt0 i _ 5 (by decide) (word_pos (i 0)).2.2.2.2.2.1 _ _) (by have h := k0_hw6 1; exact Nat.lt_of_succ_le h) _ rfl _ _ _ rfl _ x
  · intro x; exact piece_eq c fh0 xt0 i 6 (by decide) _ (word_eq c xt0 i _ 6 (by decide) (word_pos (i 0)).2.2.2.2.2.2.1 _ _) (by have h := k0_hw7 1; exact Nat.lt_of_succ_le h) _ rfl _ _ _ rfl _ x
  · intro x; exact piece_eq c fh0 xt0 i 7 (by decide) _ (word_eq c xt0 i _ 7 (by decide) (word_pos (i 0)).2.2.2.2.2.2.2 _ _) (by have h := k0_hw8 1; exact Nat.lt_of_succ_le h) _ rfl _ _ _ rfl _ x

end Cert.KernelIdeal.PointValue

end
-- ==== Proof.KernelIdealBlocks.lean ====
/-
  What the body leaves at point `t` is block `t` of the specification.

  Point `t` of the grid owns output channels `8 t … 8 t + 7`: the output window's block index at `t` is
  (0, t, 0, 0) over blocks of shape [32, 8, 128, 128], so entry (b, k, h, w) of the block is entry
  (b, 8 t + k, h, w) of the array. There the specification holds `x (b, perm (8 t + k), h, w) · ¼`, which is what the
  body left (`PointValue.out0_eq`): the same table position, the same channel, the same constant. Both sides read
  the channel modulo 64, so this step asks nothing of the table's words.
-/
import proofs.«423836_j24867860644348_3_alg».proof.Proof.KernelIdealPoint
import proofs.«423836_j24867860644348_3_alg».proof.Proof.KernelIdealValue
import proofs.«423836_j24867860644348_3_alg».proof.Proof.GatherSpec

set_option maxRecDepth 16384

noncomputable section

namespace Cert.KernelIdeal.PointValue

open Cert.KernelIdeal Cert.KernelIdeal.Gen Cert.KernelIdeal.GenP
open Idealize.ShloMosaic Idealize.ShloMosaic.TcCoe Idealize.ShloMosaic.Tactic Idealize.SL.Sem Idealize.ShloMosaic.ValueIdx

variable (m : (ℓ : Loc nD τ sig) → Buf (Elt Ideal) ℓ)

/-- On a grid of one axis the point's one coordinate is the point's number. -/
theorem coords_val : ∀ t : Fin grid0.N, (grid0.coords t 0).val = t.val := by decide +kernel

/-- The staging buffer after the body at point `t` is block `t` of the specification of the launch contents. -/
theorem outsAt0_eq (hO : Ok m) (hH : Hyps m hO) (c : Dev nD) (t : Fin (cfgM m hO).N) :
    outsAt0 m hO hH c t = (((cfgM m hO).win 0).blk t).view.read (Elt Ideal)
      (Cert.GatherScale.G (F := Ideal) (m ((c.tc : Thread nD τ).loc main_arg0)) (m ((c.tc : Thread nD τ).loc main_arg1))) := by
  unfold outsAt0
  refine (out0_eq (F := Ideal) _ _ _ _ _ _ _ _ _ _ _ _ _ _ _ _ _ _ _ _ _ _ _ _).trans ?_
  funext y
  obtain ⟨i0, i1, i2, i3⟩ := Cert.KernelIdeal.KernelValue.index_facts (adm m hO) t
  have hn : (grid0.coords t 0).val = t.val := coords_val t
  obtain rfl : c = 0 := Subsingleton.elim _ _
  show FloatOps.mulf (blockAt (V m 0 main_arg0) (tbl m 0) (grid0.coords t 0) y) _
    = FloatOps.mulf (Cert.GatherScale.gathered (F := Ideal) _ _ ((((cfgM m hO).win 0).blk t).view.emb y)) _
  refine congrArg (fun v => FloatOps.mulf v _) ?_
  unfold blockAt Cert.GatherScale.gathered Cert.GatherScale.src Cert.GatherScale.chan tabIdx
  -- the table position: 8 t + k on both sides
  have e1 : (ix1 (⟨8 * (grid0.coords t 0).val + (y 1).val, by have := (grid0.coords t 0).isLt; have h8 : (y 1).val < 8 := (y 1).isLt; have h32 : (grid0.coords t 0).val < 32 := this; omega⟩ : Fin 256) : S256.Idx)
      = ix1 ((((cfgM m hO).win 0).blk t).view.emb y (1 : Fin 4)) := by
    refine congrArg ix1 (Fin.ext ?_)
    show 8 * (grid0.coords t 0).val + (y 1).val = ((cfg0 (adm m hO)).win 0).index t (1 : Fin 4) * 8 + 1 * (y 1).val
    rw [i1, hn]; omega
  show m (((0 : Dev nD).tc : Thread nD τ).loc main_arg0) _ = m (((0 : Dev nD).tc : Thread nD τ).loc main_arg0) _
  refine congrArg (m (((0 : Dev nD).tc : Thread nD τ).loc main_arg0)) (funext fun a => Fin.ext ?_)
  fin_cases a
  · show (y 0).val = ((cfg0 (adm m hO)).win 0).index t (0 : Fin 4) * 32 + 1 * (y 0).val
    rw [i0]; omega
  · show (m (((0 : Dev nD).tc : Thread nD τ).loc main_arg1) (ix1 (⟨8 * (grid0.coords t 0).val + (y 1).val, _⟩ : Fin 256))).toNat % 64
      = (m (((0 : Dev nD).tc : Thread nD τ).loc main_arg1) (ix1 ((((cfgM m hO).win 0).blk t).view.emb y (1 : Fin 4)))).toNat % 64
    exact congrArg (fun j : S256.Idx => (m (((0 : Dev nD).tc : Thread nD τ).loc main_arg1) j).toNat % 64) e1
  · show (y 2).val = ((cfg0 (adm m hO)).win 0).index t (2 : Fin 4) * 128 + 1 * (y 2).val
    rw [i2]; omega
  · show (y 3).val = ((cfg0 (adm m hO)).win 0).index t (3 : Fin 4) * 128 + 1 * (y 3).val
    rw [i3]; omega

end Cert.KernelIdeal.PointValue

end
-- ==== Proof.RefTerm.lean ====
/-
  The reference program's result as one term of its two arguments.

  The reference is `take (x, perm, axis = 1)` scaled by one quarter. Its printed form first wraps the table
  (a negative word has 64 added), tests the wrapped word against the range [0, 63], gathers channel by channel at the
  wrapped words (the gather clamps every start index into the operand), replaces the channels whose word failed the
  test by a fill constant, and multiplies by the constant one quarter. The definitions below name these stages in
  that order; `term` is their composition.
-/
import proofs.«423836_j24867860644348_3_alg».proof.Proof.Gen.ReferenceIdeal

noncomputable section

namespace Cert.ReferenceIdeal.RefValue

open Idealize.ShloMosaic Cert.ReferenceIdeal Cert.ReferenceIdeal.Gen

variable {F : FTy → Type} [FloatOps F]

/-- The table with its negative words wrapped: a word below zero (signed) has 64 added, the others are kept. -/
def wrapped (perm : IVec S256 32) : IVec S256 32 :=
  select (cmpi .slt perm (broadcastInDim S256 ![] bcast_S_S256 (constantI S_ 32 0#32)))
    (addi perm (broadcastInDim S256 ![] bcast_S_S256 (constantI S_ 32 64#32))) perm

/-- The wrapped table as a [256 × 1] column: the gather's start indices. -/
def col (perm : IVec S256 32) : IVec S256x1 32 :=
  broadcastInDim S256x1 ![0] bcast_S256_S256x1_0 (wrapped perm)

/-- The range test: bit `j` is set when the wrapped word at `j` lies in [0, 63] (signed); the conjunction of the two
    comparisons is and-reduced along the column's unit axis. -/
def inRange (perm : IVec S256 32) : IVec S256 1 :=
  Host.reduce IntOp.andi
    (andi (cmpi .sge (col perm) (broadcastInDim S256x1 ![] bcast_S_S256x1 (constantI S_ 32 0#32)))
      (cmpi .sle (col perm)
        (broadcastInDim S256x1 ![0, 1] bcast_S1x1_S256x1_0_1 (broadcastInDim S1x1 ![1] bcast_S1_S1x1_1 (constantI S1 32 63#32)))))
    (constantI S_ 1 1#1) reducesTo_S256x1_S256_d1 h_S_

/-- The channels taken: the gather of `x` along axis 1 at the column, kept where the range test holds and replaced by
    the fill constant (the word 0x7FC00000) elsewhere. -/
def taken (x : FVec F S32x64x128x128 .f32) (perm : IVec S256 32) : FVec F S32x256x128x128 .f32 :=
  select (broadcastInDim S32x256x128x128 ![1] bcast_S256_S32x256x128x128_1 (inRange perm))
    (Host.gather gather_S32x64x128x128_S256x1_S32x256x128x128_023_1_n_n_1_1_321128128 x (col perm))
    (broadcastInDim S32x256x128x128 ![] bcast_S_S32x256x128x128 (constant S_ .f32 0x7FC00000#32))

/-- @main's operations composed into one term of the two arguments: the channels taken, times one quarter. -/
def term (x : FVec F S32x64x128x128 .f32) (perm : IVec S256 32) : FVec F S32x256x128x128 .f32 :=
  mulf (taken x perm) (broadcastInDim S32x256x128x128 ![] bcast_S_S32x256x128x128 (constant S_ .f32 0x3E800000#32))

end Cert.ReferenceIdeal.RefValue

end
-- ==== Proof.RefRun.lean ====
/-
  The run of the reference program.

  @main calls the outlined function that implements `take`, which itself calls the outlined `where`; a call executes
  the callee's body on the caller's buffers, so @main is one straight line of twenty-six tensor operations:
  twenty-two of `take`'s own, the one select of `where` in their midst, and @main's three (the constant one quarter,
  its broadcast, the product). Run in order from the launch contents, the line leaves in the result buffer the
  composed term `term` of the two arguments, and leaves the arguments as they were.
-/
import proofs.«423836_j24867860644348_3_alg».proof.Defs
import proofs.«423836_j24867860644348_3_alg».proof.Proof.Gen.ReferenceIdeal
import proofs.«423836_j24867860644348_3_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- @main's twenty-six operations in order, the two calls unfolded at their sites over the calls' buffer records:
    the wrap of the table (the zero, its broadcast, the sign test, the 64, its broadcast, the sum, then `where`'s
    select), the column of start indices, the range test (the bounds, their broadcasts, the two comparisons, their
    conjunction, its reduction along the unit axis), the gather, the test broadcast along the channel axis, the fill
    constant and its broadcast, the select; then the constant one quarter, its broadcast and the product. -/
abbrev ops : List (HloOp τ sig (Elt F)) :=
  [ TRef.nullary main_call0.c (constantI S_ 32 0#32),
    TRef.unary main_call0.c main_call0.v0 (broadcastInDim S256 ![] bcast_S_S256),
    TRef.binary (.of main_arg1) main_call0.v0 main_call0.v1 (cmpi .slt),
    TRef.nullary main_call0.c_0 (constantI S_ 32 64#32),
    TRef.unary main_call0.c_0 main_call0.v2 (broadcastInDim S256 ![] bcast_S_S256),
    TRef.binary (.of main_arg1) main_call0.v2 main_call0.v3 addi,
    TRef.ternary main_call0.v1 main_call0.v3 (.of main_arg1) main_call0.call0.v0 select,
    TRef.unary main_call0.call0.v0 main_call0.v5 (broadcastInDim S256x1 ![0] bcast_S256_S256x1_0),
    TRef.nullary main_call0.c_1 (constantI S1 32 63#32),
    TRef.nullary main_call0.c_2 (constantI S_ 32 0#32),
    TRef.unary main_call0.c_2 main_call0.v6 (broadcastInDim S256x1 ![] bcast_S_S256x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S256x1 ![0, 1] bcast_S1x1_S256x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S256x1_S256_d1 h_S_),
    TRef.binary (.of main_arg0) main_call0.v5 main_call0.v13 (fun x i => Host.gather gather_S32x64x128x128_S256x1_S32x256x128x128_023_1_n_n_1_1_321128128 x i),
    TRef.unary main_call0.v12 main_call0.v14 (broadcastInDim S32x256x128x128 ![1] bcast_S256_S32x256x128x128_1),
    TRef.nullary main_call0.cst (constant S_ .f32 0x7FC00000#32),
    TRef.unary main_call0.cst main_call0.v15 (broadcastInDim S32x256x128x128 ![] bcast_S_S32x256x128x128),
    TRef.ternary main_call0.v14 main_call0.v13 main_call0.v15 main_call0.v16 select,
    nullary main_cst (constant S_ .f32 0x3E800000#32),
    unary main_cst main_v1 (broadcastInDim S32x256x128x128 ![] bcast_S_S32x256x128x128 : (⟨S_, .f32⟩ : BufTy).Contents (Elt F) → (⟨S32x256x128x128, .f32⟩ : BufTy).Contents (Elt F)),
    binary main_v0 main_v1 main_v2 (mulf : (⟨S32x256x128x128, .f32⟩ : BufTy).Contents (Elt F) → (⟨S32x256x128x128, .f32⟩ : BufTy).Contents (Elt F) → (⟨S32x256x128x128, .f32⟩ : BufTy).Contents (Elt F)) ]

-- twenty-six binds re-associated under the two unfolded calls
set_option maxRecDepth 1024 in
/-- @main is that straight line: with the two functions' bodies unfolded at their calls, both sides are one chain
    of operation steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub ..⟩

attribute [local irreducible] Host.reduce Host.gather in
set_option maxRecDepth 8192 in
/-- The fold of the line at the result buffer is `term` of the launch contents of the two arguments: each operation
    writes its own buffer from the buffers written before it, and the typed references' transports are the identity
    at these literal references. -/
theorem out_eq (V : Valuation τ sig (Elt F)) :
    after ops V (main_v2 : DevRef τ sig) = term (V (main_arg0 : DevRef τ sig)) (V (main_arg1 : DevRef τ sig)) := by
  after_results
  rfl

/-- No operation of the line writes the first argument … -/
theorem arg0_eq (V : Valuation τ sig (Elt F)) :
    after ops V (main_arg0 : DevRef τ sig) = V (main_arg0 : DevRef τ sig) := by
  simp only [after_cons, after_nil]
  rfl

/-- … nor the second. -/
theorem arg1_eq (V : Valuation τ sig (Elt F)) :
    after ops V (main_arg1 : DevRef τ sig) = V (main_arg1 : DevRef τ sig) := by
  simp only [after_cons, after_nil]
  rfl

/-- Every weakly fair execution of the reference terminates with its result at `term` of the arguments and the
    arguments unchanged, from any memory with zero counters and for any float values. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v2) = term (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v2).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.RefSpec.lean ====
/-
  On a table whose words are all below 64 the reference's term is the specification.

  Read at one index (b, j, h, w) of the result: the wrap leaves a word below 64 alone (it is not negative); the range
  test holds of it, so the and-reduction along the unit axis gives the bit 1 at every j and the select keeps the
  gathered entry; the gather reads the operand at (b, c, h, w) with c the word at j read signed and clamped to 63,
  which for a word below 64 is the word itself; and the product with the broadcast constant is the product with the
  constant. One lemma per stage, then the composition.
-/
import proofs.«423836_j24867860644348_3_alg».proof.Proof.RefTerm
import proofs.«423836_j24867860644348_3_alg».proof.Proof.GatherSpec
import Idealize.ShloMosaic.Lib.ValueIdx
import Idealize.ShloMosaic.Lib.StableHlo.Predicate
import Idealize.ShloMosaic.PureOps.Reduce

noncomputable section

namespace Cert.ReferenceIdeal.RefValue

open Idealize.ShloMosaic Idealize.ShloMosaic.ValueIdx Idealize.ShloMosaic.StableHlo.Predicate
  Cert.ReferenceIdeal Cert.ReferenceIdeal.Gen

variable {F : FTy → Type} [FloatOps F]

/-! ## The wrap and the column -/

/-- A word below 64 is not negative, so the wrap keeps it. -/
theorem wrapped_apply (perm : IVec S256 32) (j : S256.Idx) (h : (perm j).toNat < 64) : wrapped perm j = perm j := by
  have hc : IntOp.cmpi .slt (perm j) 0#32 = 0#1 := by
    apply eq_zero_of_ne_one
    intro e
    have := (slt_iff_toNat (a := perm j) (b := 0#32) (by omega) (by decide)).1 e
    exact absurd this (Nat.not_lt_zero _)
  show Scalar.select (IntOp.cmpi .slt (perm j) 0#32) (IntOp.addi (perm j) 64#32) (perm j) = perm j
  rw [hc, select_zero]

/-- The column at row `k 0` is the wrapped table at `k 0`. -/
theorem col_apply (perm : IVec S256 32) (k : S256x1.Idx) : col perm k = wrapped perm (ix1 (k 0)) := by
  unfold col
  simp only [broadcastInDim]
  congr 1
  funext a
  have ha : a = 0 := Subsingleton.elim _ _
  subst ha
  apply Fin.ext
  split
  · next h1 => exact absurd h1 (by decide)
  · rfl

/-- On a table of words below 64 the column holds the table's words. -/
theorem col_eq (perm : IVec S256 32) (h : ∀ j : S256.Idx, (perm j).toNat < 64) (k : S256x1.Idx) :
    col perm k = perm (ix1 (k 0)) := by
  rw [col_apply, wrapped_apply perm _ (h _)]

/-! ## The range test -/

/-- An and-reduction from the bit 1 over an array of ones is 1 everywhere. -/
theorem reduce_andi_ones {s t u : Shape} {axes : List (Fin s.rank)} (x : s.Idx → BitVec 1) (init : u.Idx → BitVec 1)
    (hr : s.ReducesTo axes t) (hu : 0 < u.numel) (hinit : init (Shape.Idx.first hu) = 1#1) (hx : ∀ i, x i = 1#1)
    (j : t.Idx) : Host.reduce IntOp.andi x init hr hu j = 1#1 := by
  rw [Host.reduce_eq_foldl, hinit]
  generalize (((List.finRange s.numel).map s.rowMajor.symm).filter fun i => hr.drop i = j) = l
  induction l with
  | nil => rfl
  | cons a l ih =>
    rw [List.foldl_cons, hx a]
    exact ih

/-- On a table of words below 64 every wrapped word passes the range test. -/
theorem inRange_eq_one (perm : IVec S256 32) (h : ∀ j : S256.Idx, (perm j).toNat < 64) (j : S256.Idx) :
    inRange perm j = 1#1 := by
  unfold inRange
  refine reduce_andi_ones _ _ _ _ rfl (fun k => ?_) j
  show IntOp.andi (IntOp.cmpi .sge (col perm k) 0#32) (IntOp.cmpi .sle (col perm k) 63#32) = 1#1
  have hk := h (ix1 (k 0))
  rw [col_eq perm h k,
    (sge_iff_toNat (a := perm (ix1 (k 0))) (b := 0#32) (by omega) (by decide)).2 (Nat.zero_le _),
    (sle_iff_toNat (a := perm (ix1 (k 0))) (b := 63#32) (by omega) (by decide)).2 (by
      show (perm (ix1 (k 0))).toNat ≤ 63
      omega)]
  rfl

/-! ## The gather -/

/-- The operand index the gather reads for result index `i`: the result's batch, row and column, and in the channel
    axis the start index of row `i 1` of the column, read signed and clamped to 63. -/
theorem operandIdx_eq (idx : IVec S256x1 32) (i : S32x256x128x128.Idx) :
    (gather_S32x64x128x128_S256x1_S32x256x128x128_023_1_n_n_1_1_321128128).operandIdx i idx
      = ix4 (i 0) (⟨min (idx (ix2 (i 1) (0 : Fin 1))).toInt.toNat 63, by omega⟩ : Fin 64) (i 2) (i 3) := by
  funext a
  apply Fin.ext
  match a with
  | ⟨0, _⟩ =>
    show (gather_S32x64x128x128_S256x1_S32x256x128x128_023_1_n_n_1_1_321128128).start i idx 0 + (gather_S32x64x128x128_S256x1_S32x256x128x128_023_1_n_n_1_1_321128128).batchCoord i 0 + (gather_S32x64x128x128_S256x1_S32x256x128x128_023_1_n_n_1_1_321128128).offCoord i 0 = (i 0).val
    rw [GatherDims.batchCoord_eq_zero _ _ _ (by decide), GatherDims.start, dif_neg (by decide), GatherDims.offCoord,
      dif_pos (by decide)]
    simp only [Nat.zero_add, Nat.add_zero]
    rfl
  | ⟨1, _⟩ =>
    have hsi : (gather_S32x64x128x128_S256x1_S32x256x128x128_023_1_n_n_1_1_321128128).siIdx i ⟨List.idxOf (1 : Fin 4) (gather_S32x64x128x128_S256x1_S32x256x128x128_023_1_n_n_1_1_321128128).startIndexMap,
        List.idxOf_lt_length_iff.2 (List.mem_singleton.mpr rfl)⟩ = ix2 (i 1) (0 : Fin 1) := by
      funext b
      apply Fin.ext
      match b with
      | ⟨0, _⟩ => rfl
      | ⟨1, _⟩ => rfl
    show (gather_S32x64x128x128_S256x1_S32x256x128x128_023_1_n_n_1_1_321128128).start i idx 1 + (gather_S32x64x128x128_S256x1_S32x256x128x128_023_1_n_n_1_1_321128128).batchCoord i 1 + (gather_S32x64x128x128_S256x1_S32x256x128x128_023_1_n_n_1_1_321128128).offCoord i 1 = min (idx (ix2 (i 1) (0 : Fin 1))).toInt.toNat 63
    rw [GatherDims.batchCoord_eq_zero _ _ _ (by decide), GatherDims.offCoord_eq_zero _ _ _ (by decide), GatherDims.start,
      dif_pos (show (1 : Fin 4) ∈ (gather_S32x64x128x128_S256x1_S32x256x128x128_023_1_n_n_1_1_321128128).startIndexMap from List.mem_singleton.mpr rfl), hsi]
    rfl
  | ⟨2, _⟩ =>
    show (gather_S32x64x128x128_S256x1_S32x256x128x128_023_1_n_n_1_1_321128128).start i idx 2 + (gather_S32x64x128x128_S256x1_S32x256x128x128_023_1_n_n_1_1_321128128).batchCoord i 2 + (gather_S32x64x128x128_S256x1_S32x256x128x128_023_1_n_n_1_1_321128128).offCoord i 2 = (i 2).val
    rw [GatherDims.batchCoord_eq_zero _ _ _ (by decide), GatherDims.start, dif_neg (by decide), GatherDims.offCoord,
      dif_pos (by decide)]
    simp only [Nat.zero_add, Nat.add_zero]
    rfl
  | ⟨3, _⟩ =>
    show (gather_S32x64x128x128_S256x1_S32x256x128x128_023_1_n_n_1_1_321128128).start i idx 3 + (gather_S32x64x128x128_S256x1_S32x256x128x128_023_1_n_n_1_1_321128128).batchCoord i 3 + (gather_S32x64x128x128_S256x1_S32x256x128x128_023_1_n_n_1_1_321128128).offCoord i 3 = (i 3).val
    rw [GatherDims.batchCoord_eq_zero _ _ _ (by decide), GatherDims.start, dif_neg (by decide), GatherDims.offCoord,
      dif_pos (by decide)]
    simp only [Nat.zero_add, Nat.add_zero]
    rfl

/-- On a table of words below 64 the gather reads the operand at the specification's source index: the clamp
    to 63 and the reduction modulo 64 both leave such a word alone. -/
theorem gather_apply (x : FVec F S32x64x128x128 .f32) (perm : IVec S256 32) (h : ∀ j : S256.Idx, (perm j).toNat < 64)
    (i : S32x256x128x128.Idx) :
    Host.gather gather_S32x64x128x128_S256x1_S32x256x128x128_023_1_n_n_1_1_321128128 x (col perm) i = x (Cert.GatherScale.src perm i) := by
  show x ((gather_S32x64x128x128_S256x1_S32x256x128x128_023_1_n_n_1_1_321128128).operandIdx i (col perm)) = _
  rw [operandIdx_eq]
  have hj : (perm (ix1 (i 1))).toNat < 64 := h _
  have e : col perm (ix2 (i 1) (0 : Fin 1)) = perm (ix1 (i 1)) := col_eq perm h _
  have hv : (⟨min (col perm (ix2 (i 1) (0 : Fin 1))).toInt.toNat 63, by omega⟩ : Fin 64) = Cert.GatherScale.chan perm (i 1) := by
    apply Fin.ext
    show min (col perm (ix2 (i 1) (0 : Fin 1))).toInt.toNat 63 = (perm (ix1 (i 1))).toNat % 64
    rw [e, toInt_eq_toNat_of_lt (by omega), Int.toNat_natCast, Nat.mod_eq_of_lt hj]
    omega
  rw [hv]
  rfl

/-! ## The composition -/

/-- On a table of words below 64 the channels taken are the specification's gathered array: the range test holds
    everywhere, so the select keeps the gathered entry, which is the operand at the source index. -/
theorem taken_eq (x : FVec F S32x64x128x128 .f32) (perm : IVec S256 32) (h : ∀ j : S256.Idx, (perm j).toNat < 64) :
    taken x perm = Cert.GatherScale.gathered x perm := by
  funext i
  show Scalar.select (inRange perm _) (Host.gather gather_S32x64x128x128_S256x1_S32x256x128x128_023_1_n_n_1_1_321128128 x (col perm) i) _ = x (Cert.GatherScale.src perm i)
  rw [inRange_eq_one perm h, select_one, gather_apply x perm h i]

/-- On a table whose words are all below 64 the reference's term is the specification. -/
theorem term_eq_G (x : FVec F S32x64x128x128 .f32) (perm : IVec S256 32) (h : ∀ j : S256.Idx, (perm j).toNat < 64) :
    term x perm = Cert.GatherScale.G (F := F) x perm := by
  unfold term Cert.GatherScale.G
  rw [taken_eq x perm h]
  rfl

end Cert.ReferenceIdeal.RefValue

end
-- ==== Proof.lean ====
/-
  A channel gather followed by a scalar scale, against `jnp.take` and a multiply.

  The kernel computes, for an operand `x` of shape [32, 64, 128, 128] and a table `perm` of 256 words,
      out (b, j, h, w) = x (b, perm j, h, w) · ¼ ,
  eight output channels per grid point: each point reads its eight table words, copies the eight named channels of
  `x` out of HBM into a scratch block (eight copies in flight at once, each on its own semaphore and into its own
  channel of the block, all waited for before the block is read) and stores the block times one quarter. The reference
  takes the channels with `jnp.take` — a word below zero is first raised by 64, a word outside [0, 64) after that
  reads NaN — and multiplies by the same constant.

  THE DOMAIN. Each copy's source is the slice of `x` at the word the body has just read, and that slice exists only
  when the word, read unsigned, is below 64; on any other word the kernel has no step. The precondition therefore says,
  beside the finiteness of `x`, that every word of `perm` lies in [0, 64): an index in the range of the axis it
  indexes. Under it the frames' side conditions hold (`HypsOfPre`), the reference's wrap is never taken and its range
  mask is all ones (`RefValue.term_eq_G`).

  THE VALUE. Both programs compute the one function `GatherScale.G x perm`. On the kernel's side: what the body
  leaves at a point is the block of `G` that point owns (`PointValue.out0_eq`, `PointValue.outsAt0_eq`: the scratch
  block after the eight copies read back as one function of the operand and the table), the blocks cover the array, so
  the array after the run is `G` (`KernelValue.run_of_blocks`). On the reference's side its run ends at the composed
  term of its operations (`RefValue.run`), which is `G` on a table in range. No law of the extended reals is needed
  beyond the product being the same product on both sides: finiteness of `x` is never used.

  `preserves`: the idealization rewrote nothing, so the conjunct is `True`.
-/
import proofs.«423836_j24867860644348_3_alg».proof.Defs
import proofs.«423836_j24867860644348_3_alg».proof.Proof.Gen.Kernel
import proofs.«423836_j24867860644348_3_alg».proof.Proof.Gen.KernelIdeal
import proofs.«423836_j24867860644348_3_alg».proof.Proof.Gen.ReferenceIdeal
import proofs.«423836_j24867860644348_3_alg».proof.Proof.Gen.Pre_finite_inputs
import proofs.«423836_j24867860644348_3_alg».proof.Proof.KernelFrame
import proofs.«423836_j24867860644348_3_alg».proof.Proof.KernelIdealFrame
import proofs.«423836_j24867860644348_3_alg».proof.Proof.KernelHyps
import proofs.«423836_j24867860644348_3_alg».proof.Proof.KernelIdealHyps
import proofs.«423836_j24867860644348_3_alg».proof.Proof.KernelIdealValue
import proofs.«423836_j24867860644348_3_alg».proof.Proof.KernelIdealBlocks
import proofs.«423836_j24867860644348_3_alg».proof.Proof.RefRun
import proofs.«423836_j24867860644348_3_alg».proof.Proof.RefSpec
import Idealize.ShloMosaic.Adequacy
import Idealize.ShloMosaic.Init

noncomputable section

namespace Cert.Proof

open Idealize.ShloMosaic Idealize.SL.Sem

/-- The word-level kernel runs and leaves its arguments unchanged: its frame certificate, whose two side conditions
    (the output window inside its array; every table word a channel of `x`) the precondition gives. -/
theorem frame_kernel : Cert.frame_Kernel := fun m ρ h =>
  Cert.Kernel.GenP.frame m ρ (Cert.Kernel.HypsOfPre.ok_of_pre m h) (Cert.Kernel.HypsOfPre.hyps_of_pre m h _)

/-- The same for the kernel read over the extended reals. -/
theorem frame_kernelIdeal : Cert.frame_KernelIdeal := fun m ρ h =>
  Cert.KernelIdeal.GenP.frame m ρ (Cert.KernelIdeal.HypsOfPre.ok_of_pre m h) (Cert.KernelIdeal.HypsOfPre.hyps_of_pre m h _)

/-- The reference is a host program: it runs from any memory, and its run (the result dropped) leaves the arguments
    unchanged. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- Over the extended reals both programs end with the array `G x perm` of the (agreeing) arguments. -/
theorem algebraic : Cert.algebraic_KernelIdeal_ReferenceIdeal := by
  intro m ρ m' ρ' hpre hagree
  have hO := Cert.KernelIdeal.HypsOfPre.ok_of_pre m hpre
  have hH := Cert.KernelIdeal.HypsOfPre.hyps_of_pre m hpre hO
  refine ⟨fun c => Cert.GatherScale.G (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run_of_blocks m ρ hO hH (fun c t => Cert.KernelIdeal.PointValue.outsAt0_eq m hO hH c t), ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact Cert.ReferenceIdeal.RefValue.term_eq_G _ _ (fun j => Cert.KernelIdeal.HypsOfPre.perm_lt_of_pre m hpre c j)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
